-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x4 : Shape := ⟨2, ![262144, 4]⟩
abbrev S2x8388608 : Shape := ⟨2, ![2, 8388608]⟩
abbrev S262144 : Shape := ⟨1, ![262144]⟩
abbrev S4x64 : Shape := ⟨2, ![4, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S_ : Shape := ⟨0, ![]⟩

class Facts : Prop where
  bcast_S_S262144x4 : S_.BroadcastsInDim S262144x4 (![] : Fin 0 → Fin S262144x4.rank)
  reducesTo_S262144x4_S_d0_1 : S262144x4.ReducesTo [0, 1] S_
  h_S_ : 0 < S_.numel
  bcast_S_S4x64 : S_.BroadcastsInDim S4x64 (![] : Fin 0 → Fin S4x64.rank)
  reducesTo_S4x64_S_d0_1 : S4x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S64 .f32) (main_arg7 : FVec F S64x128 .f32) (main_arg8 : FVec F S128 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x128 .f32 := Host.absf main_arg7
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S262144x4 .f32) (main_arg1 : IVec S2x8388608 32) (main_arg2 : IVec S262144 32) (main_arg3 : FVec F S4x64 .f32) (main_arg4 : FVec F S64 .f32) (main_arg5 : FVec F S64x64 .f32) (main_arg6 : FVec F S64 .f32) (main_arg7 : FVec F S64x128 .f32) (main_arg8 : FVec F S128 .f32) : IVec S_ 1 :=
  let main_v0 : FVec F S262144x4 .f32 := Host.absf main_arg0
  let main_cst : FVec F S_ .f32 := constant S_ .f32 0x7F800000#32
  let main_v1 : FVec F S262144x4 .f32 := broadcastInDim S262144x4 ![] bcast_S_S262144x4 main_cst
  let main_v2 : IVec S262144x4 1 := cmpf .olt main_v0 main_v1
  let main_c : IVec S_ 1 := constantI S_ 1 1#1
  let main_v3 : IVec S_ 1 := (fun x v => Host.reduce IntOp.andi x v reducesTo_S262144x4_S_d0_1 h_S_) main_v2 main_c
  let main_v4 : FVec F S4x64 .f32 := Host.absf main_arg3
  let main_cst_0 : FVec F S_ .f32 := constant S_ .f32 0x7F800000#32
  let main_v5 : FVec F S4x64 .f32 := broadcastInDim S4x64 ![] bcast_S_S4x64 main_cst_0
  let main_v6 : IVec S4x64 1 := cmpf .olt main_v4 main_v5
  let main_c_1 : IVec S_ 1 := constantI S_ 1 1#1
  let main_v7 : IVec S_ 1 := (fun x v => Host.reduce IntOp.andi x v reducesTo_S4x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_v13 main_v16
-- ==== Kernel.lean ====
abbrev S262144x4 : Shape := ⟨2, ![262144, 4]⟩
abbrev S2x8388608 : Shape := ⟨2, ![2, 8388608]⟩
abbrev S262144 : Shape := ⟨1, ![262144]⟩
abbrev S4x64 : Shape := ⟨2, ![4, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S1x8388608 : Shape := ⟨2, ![1, 8388608]⟩
abbrev S8388608 : Shape := ⟨1, ![8388608]⟩
abbrev S_ : Shape := ⟨0, ![]⟩
abbrev S8388608x1 : Shape := ⟨2, ![8388608, 1]⟩
abbrev S8388608x4 : Shape := ⟨2, ![8388608, 4]⟩
abbrev S4x262144 : Shape := ⟨2, ![4, 262144]⟩
abbrev S1x262144 : Shape := ⟨2, ![1, 262144]⟩
abbrev S1x64 : Shape := ⟨2, ![1, 64]⟩
abbrev S2x512x64 : Shape := ⟨3, ![2, 512, 64]⟩
abbrev S2x512x1 : Shape := ⟨3, ![2, 512, 1]⟩
abbrev S4x8192 : Shape := ⟨2, ![4, 8192]⟩
abbrev S1x8192 : Shape := ⟨2, ![1, 8192]⟩
abbrev S1x512x64 : Shape := ⟨3, ![1, 512, 64]⟩
abbrev S1x512x1 : Shape := ⟨3, ![1, 512, 1]⟩
abbrev S512x64 : Shape := ⟨2, ![512, 64]⟩
abbrev S512x1 : Shape := ⟨2, ![512, 1]⟩
abbrev S8192x64 : Shape := ⟨2, ![8192, 64]⟩
abbrev S512x8192 : Shape := ⟨2, ![512, 8192]⟩
abbrev S512 : Shape := ⟨1, ![512]⟩
abbrev S512x128 : Shape := ⟨2, ![512, 128]⟩
abbrev S1x128 : Shape := ⟨2, ![1, 128]⟩

abbrev nBuf : Space → Nat
  | .hbm => 46
  | .vmem => 14
  | .smem => 0
  | _ => 0

abbrev bufTy : (tb : Table) → Fin (tcTables nBuf tb) → BufTy
  | .hbm, ⟨0, _⟩ => ⟨S262144x4, .f32⟩
  | .hbm, ⟨1, _⟩ => ⟨S2x8388608, .i32⟩
  | .hbm, ⟨2, _⟩ => ⟨S262144, .i32⟩
  | .hbm, ⟨3, _⟩ => ⟨S4x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x128, .f32⟩
  | .hbm, ⟨8, _⟩ => ⟨S128, .f32⟩
  | .hbm, ⟨9, _⟩ => ⟨S1x8388608, .i32⟩
  | .hbm, ⟨10, _⟩ => ⟨S8388608, .i32⟩
  | .hbm, ⟨11, _⟩ => ⟨S1x8388608, .i32⟩
  | .hbm, ⟨12, _⟩ => ⟨S8388608, .i32⟩
  | .hbm, ⟨13, _⟩ => ⟨S_, .i32⟩
  | .hbm, ⟨14, _⟩ => ⟨S8388608, .i32⟩
  | .hbm, ⟨15, _⟩ => ⟨S8388608, .i1⟩
  | .hbm, ⟨16, _⟩ => ⟨S_, .i32⟩
  | .hbm, ⟨17, _⟩ => ⟨S8388608, .i32⟩
  | .hbm, ⟨18, _⟩ => ⟨S8388608, .i32⟩
  | .hbm, ⟨19, _⟩ => ⟨S8388608, .i32⟩
  | .hbm, ⟨20, _⟩ => ⟨S8388608x1, .i32⟩
  | .hbm, ⟨21, _⟩ => ⟨S8388608x4, .f32⟩
  | .hbm, ⟨22, _⟩ => ⟨S_, .f32⟩
  | .hbm, ⟨23, _⟩ => ⟨S262144x4, .f32⟩
  | .hbm, ⟨24, _⟩ => ⟨S8388608x1, .i32⟩
  | .hbm, ⟨25, _⟩ => ⟨S262144x4, .f32⟩
  | .hbm, ⟨26, _⟩ => ⟨S262144x4, .f32⟩
  | .hbm, ⟨27, _⟩ => ⟨S4x262144, .f32⟩
  | .hbm, ⟨28, _⟩ => ⟨S1x262144, .i32⟩
  | .hbm, ⟨29, _⟩ => ⟨S1x64, .f32⟩
  | .hbm, ⟨30, _⟩ => ⟨S1x64, .f32⟩
  | .hbm, ⟨31, _⟩ => ⟨S2x512x64, .f32⟩
  | .hbm, ⟨32, _⟩ => ⟨S2x512x1, .f32⟩
  | .hbm, ⟨33, _⟩ => ⟨S_, .f32⟩
  | .hbm, ⟨34, _⟩ => ⟨S512x64, .f32⟩
  | .hbm, ⟨35, _⟩ => ⟨S_, .f32⟩
  | .hbm, ⟨36, _⟩ => ⟨S512x1, .f32⟩
  | .hbm, ⟨37, _⟩ => ⟨S_, .f32⟩
  | .hbm, ⟨38, _⟩ => ⟨S512x1, .f32⟩
  | .hbm, ⟨39, _⟩ => ⟨S512x1, .f32⟩
  | .hbm, ⟨40, _⟩ => ⟨S512x64, .f32⟩
  | .hbm, ⟨41, _⟩ => ⟨S512x64, .f32⟩
  | .hbm, ⟨42, _⟩ => ⟨S512x128, .f32⟩
  | .hbm, ⟨43, _⟩ => ⟨S1x128, .f32⟩
  | .hbm, ⟨44, _⟩ => ⟨S512x128, .f32⟩
  | .hbm, ⟨45, _⟩ => ⟨S512x128, .f32⟩
  | .local _ .vmem, ⟨0, _⟩ => ⟨S4x8192, .f32⟩
  | .local _ .vmem, ⟨1, _⟩ => ⟨S4x8192, .f32⟩
  | .local _ .vmem, ⟨2, _⟩ => ⟨S1x8192, .i32⟩
  | .local _ .vmem, ⟨3, _⟩ => ⟨S1x8192, .i32⟩
  | .local _ .vmem, ⟨4, _⟩ => ⟨S4x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S1x512x64, .f32⟩
  | .local _ .vmem, ⟨9, _⟩ => ⟨S1x512x64, .f32⟩
  | .local _ .vmem, ⟨10, _⟩ => ⟨S1x512x1, .f32⟩
  | .local _ .vmem, ⟨11, _⟩ => ⟨S1x512x1, .f32⟩
  | .local _ .vmem, ⟨12, _⟩ => ⟨S512x64, .f32⟩
  | .local _ .vmem, ⟨13, _⟩ => ⟨S512x1, .f32⟩
  | _, _ => ⟨S262144x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19_0 : Ref sig .tc := ⟨.hbm, 31, rfl⟩
abbrev main_v19_1 : Ref sig .tc := ⟨.hbm, 32, rfl⟩
abbrev main_cst_1 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v39 : BitVec 1 := Scalar.cmpi .eq arg1 c15_i32
  let v40 : BitVec 32 := Scalar.extui v39
  let c0_i32_24 : BitVec 32 := 0#32
  let v41 : BitVec 1 := Scalar.cmpi .ne v40 c0_i32_24
  v41

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  slices_S2x8388608_S1x8388608_0_0 : S2x8388608.Slices ![0, 0] S1x8388608
  shapeCasts_S1x8388608_S8388608 : S1x8388608.ShapeCasts S8388608
  slices_S2x8388608_S1x8388608_1_0 : S2x8388608.Slices ![1, 0] S1x8388608
  bcast_S_S8388608 : S_.BroadcastsInDim S8388608 (![] : Fin 0 → Fin S8388608.rank)
  bcast_S8388608_S8388608x1_0 : S8388608.BroadcastsInDim S8388608x1 (![0] : Fin 1 → Fin S8388608x1.rank)
  bcast_S_S262144x4 : S_.BroadcastsInDim S262144x4 (![] : Fin 0 → Fin S262144x4.rank)
  transposes_S262144x4_S4x262144_1_0 : S262144x4.Transposes [1, 0] S4x262144
  shapeCasts_S262144_S1x262144 : S262144.ShapeCasts S1x262144
  shapeCasts_S64_S1x64 : S64.ShapeCasts S1x64
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S4x8192_S4x8192_0_0 : ∀ a, (![0, 0] : Fin 2 → Nat) a + S4x8192.size a ≤ S4x8192.size a
  h_S4x8192 : 0 < S4x8192.numel
  shapeCasts_S4x8192_S4x8192 : S4x8192.ShapeCasts S4x8192
  inb_S4x64_S4x64_0_0 : ∀ a, (![0, 0] : Fin 2 → Nat) a + S4x64.size a ≤ S4x64.size a
  h_S4x64 : 0 < S4x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8192x64 : S1x64.Broadcasts S8192x64
  inb_S64x64_S64x64_0_0 : ∀ a, (![0, 0] : Fin 2 → Nat) a + S64x64.size a ≤ S64x64.size a
  h_S64x64 : 0 < S64x64.numel
  iota_S512x8192_d0_w32 : S512x8192.Iotas .tc 32 [0]
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S1x8192_S512x8192 : S1x8192.Broadcasts S512x8192
  natLt_1_32 : 1 < 32
  reduces_S512x8192_S512 : S512x8192.Reduces [1] S512
  shapeCasts_S512_S512x1 : S512.ShapeCasts S512x1
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  shapeCasts_S512x64_S1x512x64 : S512x64.ShapeCasts S1x512x64
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  shapeCasts_S512x1_S1x512x1 : S512x1.ShapeCasts S1x512x1
  reducesTo_S2x512x64_S512x64_d0 : S2x512x64.ReducesTo [0] S512x64
  h_S_ : 0 < S_.numel
  reducesTo_S2x512x1_S512x1_d0 : S2x512x1.ReducesTo [0] S512x1
  bcast_S_S512x1 : S_.BroadcastsInDim S512x1 (![] : Fin 0 → Fin S512x1.rank)
  bcast_S512x1_S512x64_0_1 : S512x1.BroadcastsInDim S512x64 (![0, 1] : Fin 2 → Fin S512x64.rank)
  bcast_S128_S1x128_1 : S128.BroadcastsInDim S1x128 (![1] : Fin 1 → Fin S1x128.rank)
  bcast_S1x128_S512x128_0_1 : S1x128.BroadcastsInDim S512x128 (![0, 1] : Fin 2 → Fin S512x128.rank)
  gather_S262144x4_S8388608x1_S8388608x4_1_0_n_n_0_1_14_wf : GatherDims.WF S262144x4 S8388608x1 S8388608x4 [1] [0] [] [0] [] 1 ![1, 4]
  scatter_S262144x4_S8388608x1_S8388608x4_1_0_0_1_wf : ScatterDims.WF S262144x4 S8388608x1 S8388608x4 [1] [0] [0] 1
  dot_S4x8192_S4x64_S8192x64_0_0_1_1_n_n_wf : DotDims.WF S4x8192 S4x64 S8192x64 [0] [0] [1] [1] [] []
  dot_S8192x64_S64x64_S8192x64_1_0_0_1_n_n_wf : DotDims.WF S8192x64 S64x64 S8192x64 [1] [0] [0] [1] [] []
  dot_S512x8192_S8192x64_S512x64_1_0_0_1_n_n_wf : DotDims.WF S512x8192 S8192x64 S512x64 [1] [0] [0] [1] [] []
  dot_S512x64_S64x128_S512x128_1_0_0_1_n_n_wf : DotDims.WF S512x64 S64x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x8192.size a ≤ S4x262144.size a
  hwx0_0 : ∀ i : grid0.Coords, EltTy.bits .f32 = 32 ∨ (Rect.block (s := S4x262144) S4x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8192.size a ≤ S1x262144.size a
  hwx0_1 : ∀ i : grid0.Coords, EltTy.bits .i32 = 32 ∨ (Rect.block (s := S1x262144) S1x8192.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x64.size a ≤ S4x64.size a
  hwx0_2 : ∀ i : grid0.Coords, EltTy.bits .f32 = 32 ∨ (Rect.block (s := S4x64) S4x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x64.size a ≤ S2x512x64.size a
  hwx0_6 : ∀ i : grid0.Coords, EltTy.bits .f32 = 32 ∨ (Rect.block (s := S2x512x64) S1x512x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512x1.size a ≤ S2x512x1.size a
  hwx0_7 : ∀ i : grid0.Coords, EltTy.bits .f32 = 32 ∨ (Rect.block (s := S2x512x1) S1x512x1.size (cc0_transform_7 i) (hinb0_7 i)).WholeWords (EltTy.packing .f32)

variable [Facts₀]

def gather_S262144x4_S8388608x1_S8388608x4_1_0_n_n_0_1_14 : GatherDims S262144x4 S8388608x1 S8388608x4 where
  offsetDims := [1]
  collapsedSliceDims := [0]
  operandBatchingDims := []
  startIndicesBatchingDims := []
  startIndexMap := [0]
  indexVectorDim := 1
  sliceSizes := ![1, 4]
  wf := gather_S262144x4_S8388608x1_S8388608x4_1_0_n_n_0_1_14_wf
def scatter_S262144x4_S8388608x1_S8388608x4_1_0_0_1 : ScatterDims S262144x4 S8388608x1 S8388608x4 where
  updateWindowDims := [1]
  insertedWindowDims := [0]
  scatterDimsToOperandDims := [0]
  indexVectorDim := 1
  wf := scatter_S262144x4_S8388608x1_S8388608x4_1_0_0_1_wf
def dot_S4x8192_S4x64_S8192x64_0_0_1_1_n_n : DotDims S4x8192 S4x64 S8192x64 where
  lhsContracting := [0]
  rhsContracting := [0]
  lhsNonContracting := [1]
  rhsNonContracting := [1]
  lhsBatch := []
  rhsBatch := []
  wf := dot_S4x8192_S4x64_S8192x64_0_0_1_1_n_n_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S512x8192_S8192x64_S512x64_1_0_0_1_n_n : DotDims S512x8192 S8192x64 S512x64 where
  lhsContracting := [1]
  rhsContracting := [0]
  lhsNonContracting := [0]
  rhsNonContracting := [1]
  lhsBatch := []
  rhsBatch := []
  wf := dot_S512x8192_S8192x64_S512x64_1_0_0_1_n_n_wf
def dot_S512x64_S64x128_S512x128_1_0_0_1_n_n : DotDims S512x64 S64x128 S512x128 where
  lhsContracting := [1]
  rhsContracting := [0]
  lhsNonContracting := [0]
  rhsNonContracting := [1]
  lhsBatch := []
  rhsBatch := []
  wf := dot_S512x64_S64x128_S512x128_1_0_0_1_n_n_wf

abbrev win0_0 : Pipeline.Window sig grid0 :=
  Pipeline.Window.ofSpec (Memref.whole main_v15) S4x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S1x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S4x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19_0) S1x512x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v19_1) S1x512x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond2 i == 1#1) | 7 => fun i => !(k0_cond2 i == 1#1) | ⟨_ + 8, h⟩ => absurd h (Nat.not_lt.2 (Nat.le_add_left _ _))

class Facts : Prop extends Facts₀ where

variable [Facts]
-- ==== ReferenceIdeal.lean ====
abbrev S262144x4 : Shape := ⟨2, ![262144, 4]⟩
abbrev S2x8388608 : Shape := ⟨2, ![2, 8388608]⟩
abbrev S262144 : Shape := ⟨1, ![262144]⟩
abbrev S4x64 : Shape := ⟨2, ![4, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S1x8388608 : Shape := ⟨2, ![1, 8388608]⟩
abbrev S8388608 : Shape := ⟨1, ![8388608]⟩
abbrev S_ : Shape := ⟨0, ![]⟩
abbrev S8388608x1 : Shape := ⟨2, ![8388608, 1]⟩
abbrev S8388608x4 : Shape := ⟨2, ![8388608, 4]⟩
abbrev S262144x64 : Shape := ⟨2, ![262144, 64]⟩
abbrev S1x64 : Shape := ⟨2, ![1, 64]⟩
abbrev S512x64 : Shape := ⟨2, ![512, 64]⟩
abbrev S262144x1 : Shape := ⟨2, ![262144, 1]⟩
abbrev S512 : Shape := ⟨1, ![512]⟩
abbrev S512x1 : Shape := ⟨2, ![512, 1]⟩
abbrev S512x128 : Shape := ⟨2, ![512, 128]⟩
abbrev S1x128 : Shape := ⟨2, ![1, 128]⟩

abbrev nBuf : Space → Nat
  | .hbm => 58
  | .vmem => 0
  | .smem => 0
  | _ => 0

abbrev bufTy : (tb : Table) → Fin (tcTables nBuf tb) → BufTy
  | .hbm, ⟨0, _⟩ => ⟨S262144x4, .f32⟩
  | .hbm, ⟨1, _⟩ => ⟨S2x8388608, .i32⟩
  | .hbm, ⟨2, _⟩ => ⟨S262144, .i32⟩
  | .hbm, ⟨3, _⟩ => ⟨S4x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x128, .f32⟩
  | .hbm, ⟨8, _⟩ => ⟨S128, .f32⟩
  | .hbm, ⟨9, _⟩ => ⟨S1x8388608, .i32⟩
  | .hbm, ⟨10, _⟩ => ⟨S8388608, .i32⟩
  | .hbm, ⟨11, _⟩ => ⟨S1x8388608, .i32⟩
  | .hbm, ⟨12, _⟩ => ⟨S8388608, .i32⟩
  | .hbm, ⟨13, _⟩ => ⟨S_, .i32⟩
  | .hbm, ⟨14, _⟩ => ⟨S8388608, .i32⟩
  | .hbm, ⟨15, _⟩ => ⟨S8388608, .i1⟩
  | .hbm, ⟨16, _⟩ => ⟨S_, .i32⟩
  | .hbm, ⟨17, _⟩ => ⟨S8388608, .i32⟩
  | .hbm, ⟨18, _⟩ => ⟨S8388608, .i32⟩
  | .hbm, ⟨19, _⟩ => ⟨S8388608, .i32⟩
  | .hbm, ⟨20, _⟩ => ⟨S8388608x1, .i32⟩
  | .hbm, ⟨21, _⟩ => ⟨S8388608x4, .f32⟩
  | .hbm, ⟨22, _⟩ => ⟨S_, .f32⟩
  | .hbm, ⟨23, _⟩ => ⟨S262144x4, .f32⟩
  | .hbm, ⟨24, _⟩ => ⟨S8388608x1, .i32⟩
  | .hbm, ⟨25, _⟩ => ⟨S262144x4, .f32⟩
  | .hbm, ⟨26, _⟩ => ⟨S262144x4, .f32⟩
  | .hbm, ⟨27, _⟩ => ⟨S262144x64, .f32⟩
  | .hbm, ⟨28, _⟩ => ⟨S1x64, .f32⟩
  | .hbm, ⟨29, _⟩ => ⟨S262144x64, .f32⟩
  | .hbm, ⟨30, _⟩ => ⟨S262144x64, .f32⟩
  | .hbm, ⟨31, _⟩ => ⟨S_, .f32⟩
  | .hbm, ⟨32, _⟩ => ⟨S262144x64, .f32⟩
  | .hbm, ⟨33, _⟩ => ⟨S262144x64, .f32⟩
  | .hbm, ⟨34, _⟩ => ⟨S262144x64, .f32⟩
  | .hbm, ⟨35, _⟩ => ⟨S1x64, .f32⟩
  | .hbm, ⟨36, _⟩ => ⟨S262144x64, .f32⟩
  | .hbm, ⟨37, _⟩ => ⟨S262144x64, .f32⟩
  | .hbm, ⟨38, _⟩ => ⟨S_, .f32⟩
  | .hbm, ⟨39, _⟩ => ⟨S512x64, .f32⟩
  | .hbm, ⟨40, _⟩ => ⟨S262144x1, .i32⟩
  | .hbm, ⟨41, _⟩ => ⟨S512x64, .f32⟩
  | .hbm, ⟨42, _⟩ => ⟨S_, .f32⟩
  | .hbm, ⟨43, _⟩ => ⟨S262144, .f32⟩
  | .hbm, ⟨44, _⟩ => ⟨S_, .f32⟩
  | .hbm, ⟨45, _⟩ => ⟨S512, .f32⟩
  | .hbm, ⟨46, _⟩ => ⟨S262144x1, .i32⟩
  | .hbm, ⟨47, _⟩ => ⟨S512, .f32⟩
  | .hbm, ⟨48, _⟩ => ⟨S_, .f32⟩
  | .hbm, ⟨49, _⟩ => ⟨S512, .f32⟩
  | .hbm, ⟨50, _⟩ => ⟨S512, .f32⟩
  | .hbm, ⟨51, _⟩ => ⟨S512x1, .f32⟩
  | .hbm, ⟨52, _⟩ => ⟨S512x64, .f32⟩
  | .hbm, ⟨53, _⟩ => ⟨S512x64, .f32⟩
  | .hbm, ⟨54, _⟩ => ⟨S512x128, .f32⟩
  | .hbm, ⟨55, _⟩ => ⟨S1x128, .f32⟩
  | .hbm, ⟨56, _⟩ => ⟨S512x128, .f32⟩
  | .hbm, ⟨57, _⟩ => ⟨S512x128, .f32⟩
  | _, _ => ⟨S262144x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩

abbrev nD : Nat := 1
abbrev τ : Topo := Topo.v7x

variable {F : FTy → Type} [FloatOps F]

class Facts₀ : Prop where
  slices_S2x8388608_S1x8388608_0_0 : S2x8388608.Slices ![0, 0] S1x8388608
  shapeCasts_S1x8388608_S8388608 : S1x8388608.ShapeCasts S8388608
  slices_S2x8388608_S1x8388608_1_0 : S2x8388608.Slices ![1, 0] S1x8388608
  bcast_S_S8388608 : S_.BroadcastsInDim S8388608 (![] : Fin 0 → Fin S8388608.rank)
  bcast_S8388608_S8388608x1_0 : S8388608.BroadcastsInDim S8388608x1 (![0] : Fin 1 → Fin S8388608x1.rank)
  bcast_S_S262144x4 : S_.BroadcastsInDim S262144x4 (![] : Fin 0 → Fin S262144x4.rank)
  bcast_S64_S1x64_1 : S64.BroadcastsInDim S1x64 (![1] : Fin 1 → Fin S1x64.rank)
  bcast_S1x64_S262144x64_0_1 : S1x64.BroadcastsInDim S262144x64 (![0, 1] : Fin 2 → Fin S262144x64.rank)
  bcast_S_S262144x64 : S_.BroadcastsInDim S262144x64 (![] : Fin 0 → Fin S262144x64.rank)
  bcast_S_S512x64 : S_.BroadcastsInDim S512x64 (![] : Fin 0 → Fin S512x64.rank)
  bcast_S262144_S262144x1_0 : S262144.BroadcastsInDim S262144x1 (![0] : Fin 1 → Fin S262144x1.rank)
  bcast_S_S262144 : S_.BroadcastsInDim S262144 (![] : Fin 0 → Fin S262144.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  bcast_S128_S1x128_1 : S128.BroadcastsInDim S1x128 (![1] : Fin 1 → Fin S1x128.rank)
  bcast_S1x128_S512x128_0_1 : S1x128.BroadcastsInDim S512x128 (![0, 1] : Fin 2 → Fin S512x128.rank)
  gather_S262144x4_S8388608x1_S8388608x4_1_0_n_n_0_1_14_wf : GatherDims.WF S262144x4 S8388608x1 S8388608x4 [1] [0] [] [0] [] 1 ![1, 4]
  scatter_S262144x4_S8388608x1_S8388608x4_1_0_0_1_wf : ScatterDims.WF S262144x4 S8388608x1 S8388608x4 [1] [0] [0] 1
  dot_S262144x4_S4x64_S262144x64_1_0_0_1_n_n_wf : DotDims.WF S262144x4 S4x64 S262144x64 [1] [0] [0] [1] [] []
  dot_S262144x64_S64x64_S262144x64_1_0_0_1_n_n_wf : DotDims.WF S262144x64 S64x64 S262144x64 [1] [0] [0] [1] [] []
  scatter_S512x64_S262144x1_S262144x64_1_0_0_1_wf : ScatterDims.WF S512x64 S262144x1 S262144x64 [1] [0] [0] 1
  scatter_S512_S262144x1_S262144_n_0_0_1_wf : ScatterDims.WF S512 S262144x1 S262144 [] [0] [0] 1
  dot_S512x64_S64x128_S512x128_1_0_0_1_n_n_wf : DotDims.WF S512x64 S64x128 S512x128 [1] [0] [0] [1] [] []

variable [Facts₀]

def gather_S262144x4_S8388608x1_S8388608x4_1_0_n_n_0_1_14 : GatherDims S262144x4 S8388608x1 S8388608x4 where
  offsetDims := [1]
  collapsedSliceDims := [0]
  operandBatchingDims := []
  startIndicesBatchingDims := []
  startIndexMap := [0]
  indexVectorDim := 1
  sliceSizes := ![1, 4]
  wf := gather_S262144x4_S8388608x1_S8388608x4_1_0_n_n_0_1_14_wf
def scatter_S262144x4_S8388608x1_S8388608x4_1_0_0_1 : ScatterDims S262144x4 S8388608x1 S8388608x4 where
  updateWindowDims := [1]
  insertedWindowDims := [0]
  scatterDimsToOperandDims := [0]
  indexVectorDim := 1
  wf := scatter_S262144x4_S8388608x1_S8388608x4_1_0_0_1_wf
def dot_S262144x4_S4x64_S262144x64_1_0_0_1_n_n : DotDims S262144x4 S4x64 S262144x64 where
  lhsContracting := [1]
  rhsContracting := [0]
  lhsNonContracting := [0]
  rhsNonContracting := [1]
  lhsBatch := []
  rhsBatch := []
  wf := dot_S262144x4_S4x64_S262144x64_1_0_0_1_n_n_wf
def dot_S262144x64_S64x64_S262144x64_1_0_0_1_n_n : DotDims S262144x64 S64x64 S262144x64 where
  lhsContracting := [1]
  rhsContracting := [0]
  lhsNonContracting := [0]
  rhsNonContracting := [1]
  lhsBatch := []
  rhsBatch := []
  wf := dot_S262144x64_S64x64_S262144x64_1_0_0_1_n_n_wf
def scatter_S512x64_S262144x1_S262144x64_1_0_0_1 : ScatterDims S512x64 S262144x1 S262144x64 where
  updateWindowDims := [1]
  insertedWindowDims := [0]
  scatterDimsToOperandDims := [0]
  indexVectorDim := 1
  wf := scatter_S512x64_S262144x1_S262144x64_1_0_0_1_wf
def scatter_S512_S262144x1_S262144_n_0_0_1 : ScatterDims S512 S262144x1 S262144 where
  updateWindowDims := []
  insertedWindowDims := [0]
  scatterDimsToOperandDims := [0]
  indexVectorDim := 1
  wf := scatter_S512_S262144x1_S262144_n_0_0_1_wf
def dot_S512x64_S64x128_S512x128_1_0_0_1_n_n : DotDims S512x64 S64x128 S512x128 where
  lhsContracting := [1]
  rhsContracting := [0]
  lhsNonContracting := [0]
  rhsNonContracting := [1]
  lhsBatch := []
  rhsBatch := []
  wf := dot_S512x64_S64x128_S512x128_1_0_0_1_n_n_wf

class Facts : Prop extends Facts₀ where

variable [Facts]
-- ==== Proof.KPieces.lean ====
/-
  What each control case of the kernel body leaves behind, as values.

  The body has three cases by the step `s` of the grid point: the first step of a core (the two accumulators are
  reset to zero, then updated), a middle step (updated), the last step (updated, then copied to the two outputs).
  Each accumulator and each output is stored whole, so what a case leaves in it is the payload of its last store,
  with every load read at the whole buffer it loads from: the sums accumulator ends at the old sums plus the one-hot
  product of this block, the counts accumulator at the old counts plus the one-hot's row sums, and at the last step
  each output is its accumulator reshaped with a leading unit axis.
-/
import proofs.«417854_j8297876816596_3_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## A middle step -/

/-- The sums accumulator after a middle step: the update's payload over the old contents `xs0`. -/
theorem sums_B (c : Dev nD) (i : grid0.Coords) (arg2 : Memref sig .tc .vmem S4x8192 .f32) (harg2 : arg2.IsWhole) (arg3 : Memref sig .tc .vmem S1x8192 .i32) (harg3 : arg3.IsWhole) (arg4 : Memref sig .tc .vmem S4x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x512x64 .f32) (harg8 : arg8.IsWhole) (arg9 : Memref sig .tc .vmem S1x512x1 .f32) (harg9 : arg9.IsWhole) (arg10 : Memref sig .tc .vmem S512x64 .f32) (harg10 : arg10.IsWhole) (arg11 : Memref sig .tc .vmem S512x1 .f32) (harg11 : arg11.IsWhole) (hc0 : ¬cond0_0 i) (hc1 : ¬cond0_1 i)
    (x0 : Vec F S4x8192 .f32) (x1 : Vec F S1x8192 .i32) (x2 : Vec F S4x64 .f32) (x3 : Vec F S1x64 .f32) (x4 : Vec F S64x64 .f32) (x5 : Vec F S1x64 .f32) (xs0 : Vec F S512x64 .f32) (xs1 : Vec F S512x1 .f32) :
    sout0_B_0 c i arg2 harg2 arg3 harg3 arg4 harg4 arg5 harg5 arg6 harg6 arg7 harg7 arg8 harg8 arg9 harg9 arg10 harg10 arg11 harg11 hc0 hc1 x0 x1 x2 x3 x4 x5 xs0 xs1 = k0_pay7 x0 x2 x3 x4 x5 x1 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S4x8192) hz2, View.ld_unit_zero (S := S1x8192) hz2, View.ld_unit_zero (S := S4x64) hz2, View.ld_unit_zero (S := S1x64) hz2, View.ld_unit_zero (S := S64x64) hz2, View.ld_unit_zero (S := S512x64) hz2, View.ld_unit_zero (S := S512x1) hz2, View.ld_unit_zero (S := S1x512x64) hz3, View.ld_unit_zero (S := S1x512x1) hz3]

/-- The counts accumulator after a middle step: the old counts `xs1` plus the one-hot's row sums. -/
theorem counts_B (c : Dev nD) (i : grid0.Coords) (arg2 : Memref sig .tc .vmem S4x8192 .f32) (harg2 : arg2.IsWhole) (arg3 : Memref sig .tc .vmem S1x8192 .i32) (harg3 : arg3.IsWhole) (arg4 : Memref sig .tc .vmem S4x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x512x64 .f32) (harg8 : arg8.IsWhole) (arg9 : Memref sig .tc .vmem S1x512x1 .f32) (harg9 : arg9.IsWhole) (arg10 : Memref sig .tc .vmem S512x64 .f32) (harg10 : arg10.IsWhole) (arg11 : Memref sig .tc .vmem S512x1 .f32) (harg11 : arg11.IsWhole) (hc0 : ¬cond0_0 i) (hc1 : ¬cond0_1 i)
    (x0 : Vec F S4x8192 .f32) (x1 : Vec F S1x8192 .i32) (x2 : Vec F S4x64 .f32) (x3 : Vec F S1x64 .f32) (x4 : Vec F S64x64 .f32) (x5 : Vec F S1x64 .f32) (xs0 : Vec F S512x64 .f32) (xs1 : Vec F S512x1 .f32) :
    sout0_B_1 c i arg2 harg2 arg3 harg3 arg4 harg4 arg5 harg5 arg6 harg6 arg7 harg7 arg8 harg8 arg9 harg9 arg10 harg10 arg11 harg11 hc0 hc1 x0 x1 x2 x3 x4 x5 xs0 xs1 = k0_pay1 (k0_pay6 x1) xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S4x8192) hz2, View.ld_unit_zero (S := S1x8192) hz2, View.ld_unit_zero (S := S4x64) hz2, View.ld_unit_zero (S := S1x64) hz2, View.ld_unit_zero (S := S64x64) hz2, View.ld_unit_zero (S := S512x64) hz2, View.ld_unit_zero (S := S512x1) hz2, View.ld_unit_zero (S := S1x512x64) hz3, View.ld_unit_zero (S := S1x512x1) hz3]

/-! ## The first step of a core -/

/-- The sums accumulator after a core's first step: the update's payload over the zero block just stored. -/
theorem sums_A (c : Dev nD) (i : grid0.Coords) (arg2 : Memref sig .tc .vmem S4x8192 .f32) (harg2 : arg2.IsWhole) (arg3 : Memref sig .tc .vmem S1x8192 .i32) (harg3 : arg3.IsWhole) (arg4 : Memref sig .tc .vmem S4x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x512x64 .f32) (harg8 : arg8.IsWhole) (arg9 : Memref sig .tc .vmem S1x512x1 .f32) (harg9 : arg9.IsWhole) (arg10 : Memref sig .tc .vmem S512x64 .f32) (harg10 : arg10.IsWhole) (arg11 : Memref sig .tc .vmem S512x1 .f32) (harg11 : arg11.IsWhole) (hc0 : cond0_0 i) (hc1 : ¬cond0_1 i)
    (x0 : Vec F S4x8192 .f32) (x1 : Vec F S1x8192 .i32) (x2 : Vec F S4x64 .f32) (x3 : Vec F S1x64 .f32) (x4 : Vec F S64x64 .f32) (x5 : Vec F S1x64 .f32) :
    sout0_A_0 c i arg2 harg2 arg3 harg3 arg4 harg4 arg5 harg5 arg6 harg6 arg7 harg7 arg8 harg8 arg9 harg9 arg10 harg10 arg11 harg11 hc0 hc1 x0 x1 x2 x3 x4 x5 = k0_pay7 x0 x2 x3 x4 x5 x1 (k0_pay4 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  rw [View.canon_cons_unit_zero (S := S512x64) hz2, View.readCov_unit_zero (S := S512x64) _ hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S4x8192) hz2, View.ld_unit_zero (S := S1x8192) hz2, View.ld_unit_zero (S := S4x64) hz2, View.ld_unit_zero (S := S1x64) hz2, View.ld_unit_zero (S := S64x64) hz2, View.ld_unit_zero (S := S512x64) hz2, View.ld_unit_zero (S := S512x1) hz2, View.ld_unit_zero (S := S1x512x64) hz3, View.ld_unit_zero (S := S1x512x1) hz3]

/-- The counts accumulator after a core's first step: the zero column plus the one-hot's row sums. -/
theorem counts_A (c : Dev nD) (i : grid0.Coords) (arg2 : Memref sig .tc .vmem S4x8192 .f32) (harg2 : arg2.IsWhole) (arg3 : Memref sig .tc .vmem S1x8192 .i32) (harg3 : arg3.IsWhole) (arg4 : Memref sig .tc .vmem S4x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x512x64 .f32) (harg8 : arg8.IsWhole) (arg9 : Memref sig .tc .vmem S1x512x1 .f32) (harg9 : arg9.IsWhole) (arg10 : Memref sig .tc .vmem S512x64 .f32) (harg10 : arg10.IsWhole) (arg11 : Memref sig .tc .vmem S512x1 .f32) (harg11 : arg11.IsWhole) (hc0 : cond0_0 i) (hc1 : ¬cond0_1 i)
    (x0 : Vec F S4x8192 .f32) (x1 : Vec F S1x8192 .i32) (x2 : Vec F S4x64 .f32) (x3 : Vec F S1x64 .f32) (x4 : Vec F S64x64 .f32) (x5 : Vec F S1x64 .f32) :
    sout0_A_1 c i arg2 harg2 arg3 harg3 arg4 harg4 arg5 harg5 arg6 harg6 arg7 harg7 arg8 harg8 arg9 harg9 arg10 harg10 arg11 harg11 hc0 hc1 x0 x1 x2 x3 x4 x5 = k0_pay1 (k0_pay6 x1) (k0_pay5 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  rw [View.canon_cons_unit_zero (S := S512x1) hz2, View.readCov_unit_zero (S := S512x1) _ hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S4x8192) hz2, View.ld_unit_zero (S := S1x8192) hz2, View.ld_unit_zero (S := S4x64) hz2, View.ld_unit_zero (S := S1x64) hz2, View.ld_unit_zero (S := S64x64) hz2, View.ld_unit_zero (S := S512x64) hz2, View.ld_unit_zero (S := S512x1) hz2, View.ld_unit_zero (S := S1x512x64) hz3, View.ld_unit_zero (S := S1x512x1) hz3]

/-! ## The last step of a core -/

/-- The sums accumulator after a core's last step: updated as at a middle step. -/
theorem sums_C (c : Dev nD) (i : grid0.Coords) (arg2 : Memref sig .tc .vmem S4x8192 .f32) (harg2 : arg2.IsWhole) (arg3 : Memref sig .tc .vmem S1x8192 .i32) (harg3 : arg3.IsWhole) (arg4 : Memref sig .tc .vmem S4x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x512x64 .f32) (harg8 : arg8.IsWhole) (arg9 : Memref sig .tc .vmem S1x512x1 .f32) (harg9 : arg9.IsWhole) (arg10 : Memref sig .tc .vmem S512x64 .f32) (harg10 : arg10.IsWhole) (arg11 : Memref sig .tc .vmem S512x1 .f32) (harg11 : arg11.IsWhole) (hc0 : ¬cond0_0 i) (hc1 : cond0_1 i)
    (x0 : Vec F S4x8192 .f32) (x1 : Vec F S1x8192 .i32) (x2 : Vec F S4x64 .f32) (x3 : Vec F S1x64 .f32) (x4 : Vec F S64x64 .f32) (x5 : Vec F S1x64 .f32) (xs0 : Vec F S512x64 .f32) (xs1 : Vec F S512x1 .f32) :
    sout0_C_0 c i arg2 harg2 arg3 harg3 arg4 harg4 arg5 harg5 arg6 harg6 arg7 harg7 arg8 harg8 arg9 harg9 arg10 harg10 arg11 harg11 hc0 hc1 x0 x1 x2 x3 x4 x5 xs0 xs1 = k0_pay7 x0 x2 x3 x4 x5 x1 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S4x8192) hz2, View.ld_unit_zero (S := S1x8192) hz2, View.ld_unit_zero (S := S4x64) hz2, View.ld_unit_zero (S := S1x64) hz2, View.ld_unit_zero (S := S64x64) hz2, View.ld_unit_zero (S := S512x64) hz2, View.ld_unit_zero (S := S512x1) hz2, View.ld_unit_zero (S := S1x512x64) hz3, View.ld_unit_zero (S := S1x512x1) hz3]

/-- The counts accumulator after a core's last step: updated as at a middle step. -/
theorem counts_C (c : Dev nD) (i : grid0.Coords) (arg2 : Memref sig .tc .vmem S4x8192 .f32) (harg2 : arg2.IsWhole) (arg3 : Memref sig .tc .vmem S1x8192 .i32) (harg3 : arg3.IsWhole) (arg4 : Memref sig .tc .vmem S4x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x512x64 .f32) (harg8 : arg8.IsWhole) (arg9 : Memref sig .tc .vmem S1x512x1 .f32) (harg9 : arg9.IsWhole) (arg10 : Memref sig .tc .vmem S512x64 .f32) (harg10 : arg10.IsWhole) (arg11 : Memref sig .tc .vmem S512x1 .f32) (harg11 : arg11.IsWhole) (hc0 : ¬cond0_0 i) (hc1 : cond0_1 i)
    (x0 : Vec F S4x8192 .f32) (x1 : Vec F S1x8192 .i32) (x2 : Vec F S4x64 .f32) (x3 : Vec F S1x64 .f32) (x4 : Vec F S64x64 .f32) (x5 : Vec F S1x64 .f32) (xs0 : Vec F S512x64 .f32) (xs1 : Vec F S512x1 .f32) :
    sout0_C_1 c i arg2 harg2 arg3 harg3 arg4 harg4 arg5 harg5 arg6 harg6 arg7 harg7 arg8 harg8 arg9 harg9 arg10 harg10 arg11 harg11 hc0 hc1 x0 x1 x2 x3 x4 x5 xs0 xs1 = k0_pay1 (k0_pay6 x1) xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S4x8192) hz2, View.ld_unit_zero (S := S1x8192) hz2, View.ld_unit_zero (S := S4x64) hz2, View.ld_unit_zero (S := S1x64) hz2, View.ld_unit_zero (S := S64x64) hz2, View.ld_unit_zero (S := S512x64) hz2, View.ld_unit_zero (S := S512x1) hz2, View.ld_unit_zero (S := S1x512x64) hz3, View.ld_unit_zero (S := S1x512x1) hz3]

/-- The sums output's block after a core's last step: the updated sums accumulator, with a leading unit axis. -/
theorem out_sums_C (c : Dev nD) (i : grid0.Coords) (arg2 : Memref sig .tc .vmem S4x8192 .f32) (harg2 : arg2.IsWhole) (arg3 : Memref sig .tc .vmem S1x8192 .i32) (harg3 : arg3.IsWhole) (arg4 : Memref sig .tc .vmem S4x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x512x64 .f32) (harg8 : arg8.IsWhole) (arg9 : Memref sig .tc .vmem S1x512x1 .f32) (harg9 : arg9.IsWhole) (arg10 : Memref sig .tc .vmem S512x64 .f32) (harg10 : arg10.IsWhole) (arg11 : Memref sig .tc .vmem S512x1 .f32) (harg11 : arg11.IsWhole) (hc0 : ¬cond0_0 i) (hc1 : cond0_1 i)
    (x0 : Vec F S4x8192 .f32) (x1 : Vec F S1x8192 .i32) (x2 : Vec F S4x64 .f32) (x3 : Vec F S1x64 .f32) (x4 : Vec F S64x64 .f32) (x5 : Vec F S1x64 .f32) (xs0 : Vec F S512x64 .f32) (xs1 : Vec F S512x1 .f32) :
    out0_C_6 c i arg2 harg2 arg3 harg3 arg4 harg4 arg5 harg5 arg6 harg6 arg7 harg7 arg8 harg8 arg9 harg9 arg10 harg10 arg11 harg11 hc0 hc1 x0 x1 x2 x3 x4 x5 xs0 xs1 = k0_pay2 (k0_pay7 x0 x2 x3 x4 x5 x1 xs0) := by
  unfold out0_C_6
  rw [View.read_writes_eq_canon _ _ _ (cover0_C_6 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, View.ld_unit_zero (S := S4x8192) hz2, View.ld_unit_zero (S := S1x8192) hz2, View.ld_unit_zero (S := S4x64) hz2, View.ld_unit_zero (S := S1x64) hz2, View.ld_unit_zero (S := S64x64) hz2, View.ld_unit_zero (S := S512x64) hz2, View.ld_unit_zero (S := S512x1) hz2, View.ld_unit_zero (S := S1x512x64) hz3, View.ld_unit_zero (S := S1x512x1) hz3, View.readCov_unit_zero (S := S512x64) _ hz2]

/-- The counts output's block after a core's last step: the updated counts accumulator, with a leading unit axis. -/
theorem out_counts_C (c : Dev nD) (i : grid0.Coords) (arg2 : Memref sig .tc .vmem S4x8192 .f32) (harg2 : arg2.IsWhole) (arg3 : Memref sig .tc .vmem S1x8192 .i32) (harg3 : arg3.IsWhole) (arg4 : Memref sig .tc .vmem S4x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x512x64 .f32) (harg8 : arg8.IsWhole) (arg9 : Memref sig .tc .vmem S1x512x1 .f32) (harg9 : arg9.IsWhole) (arg10 : Memref sig .tc .vmem S512x64 .f32) (harg10 : arg10.IsWhole) (arg11 : Memref sig .tc .vmem S512x1 .f32) (harg11 : arg11.IsWhole) (hc0 : ¬cond0_0 i) (hc1 : cond0_1 i)
    (x0 : Vec F S4x8192 .f32) (x1 : Vec F S1x8192 .i32) (x2 : Vec F S4x64 .f32) (x3 : Vec F S1x64 .f32) (x4 : Vec F S64x64 .f32) (x5 : Vec F S1x64 .f32) (xs0 : Vec F S512x64 .f32) (xs1 : Vec F S512x1 .f32) :
    out0_C_7 c i arg2 harg2 arg3 harg3 arg4 harg4 arg5 harg5 arg6 harg6 arg7 harg7 arg8 harg8 arg9 harg9 arg10 harg10 arg11 harg11 hc0 hc1 x0 x1 x2 x3 x4 x5 xs0 xs1 = k0_pay3 (k0_pay1 (k0_pay6 x1) xs1) := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, View.ld_unit_zero (S := S4x8192) hz2, View.ld_unit_zero (S := S1x8192) hz2, View.ld_unit_zero (S := S4x64) hz2, View.ld_unit_zero (S := S1x64) hz2, View.ld_unit_zero (S := S64x64) hz2, View.ld_unit_zero (S := S512x64) hz2, View.ld_unit_zero (S := S512x1) hz2, View.ld_unit_zero (S := S1x512x64) hz3, View.ld_unit_zero (S := S1x512x1) hz3, View.readCov_unit_zero (S := S512x1) _ hz2]

end Cert.KernelIdeal.Pieces

end
-- ==== Proof.KFold.lean ====
/-
  The two accumulators after every grid point, and the two outputs at each core's last point.

  Point `n` of the 32 is step `n % 16` of core `n / 16`. At step 0 an accumulator is reset to zero and then
  updated with the point's block; at every other step it is updated over what the point before left. So after
  point `n` it holds the updates of the points `16 (n / 16) … n` applied in order to zero; and at step 15 each
  output's block is its accumulator, reshaped.
-/
import proofs.«417854_j8297876816596_3_alg».proof.Proof.Gen.KernelIdeal.Frame
import Idealize.ShloMosaic.Lib.Pipeline.Value
import Idealize.ShloMosaic.Lib.Tactic
import proofs.«417854_j8297876816596_3_alg».proof.Proof.KPieces
set_option maxRecDepth 16384

noncomputable section

open Idealize.ShloMosaic Idealize.ShloMosaic.TcCoe Idealize.SL.Sem
open Idealize.ShloMosaic.Pipeline (Dat)

namespace Cert.KernelIdeal.Fold

open Cert.KernelIdeal Cert.KernelIdeal.Gen

variable {F : FTy → Type} [FloatOps F]

open Cert.KernelIdeal.Pieces

variable (m : (ℓ : Loc nD τ sig) → Buf (Elt F) ℓ)

/-! ## A point's input blocks, at their literal types -/

/-- The block of the transposed node features at point `t`: 4 feature rows by 8192 nodes. -/
abbrev ztB (c : Dev nD) (t : Fin cfg0.N) : Vec F S4x8192 .f32 := iblk m c 0 t
/-- The block of graph ids at point `t`: one row of 8192. -/
abbrev idB (c : Dev nD) (t : Fin cfg0.N) : Vec F S1x8192 .i32 := iblk m c 1 t
/-- The first layer's weights, its bias as a row, the second layer's weights, its bias as a row: whole at every point. -/
abbrev w1B (c : Dev nD) (t : Fin cfg0.N) : Vec F S4x64 .f32 := iblk m c 2 t
abbrev b1B (c : Dev nD) (t : Fin cfg0.N) : Vec F S1x64 .f32 := iblk m c 3 t
abbrev w2B (c : Dev nD) (t : Fin cfg0.N) : Vec F S64x64 .f32 := iblk m c 4 t
abbrev b2B (c : Dev nD) (t : Fin cfg0.N) : Vec F S1x64 .f32 := iblk m c 5 t

/-- Point `t`'s update of the sums accumulator: the old contents plus the one-hot product of the point's block. -/
def stepS (c : Dev nD) (t : Fin cfg0.N) (acc : Vec F S512x64 .f32) : Vec F S512x64 .f32 :=
  k0_pay7 (ztB m c t) (w1B m c t) (b1B m c t) (w2B m c t) (b2B m c t) (idB m c t) acc

/-- Point `t`'s update of the counts accumulator: the old contents plus the one-hot's row sums. -/
def stepC (c : Dev nD) (t : Fin cfg0.N) (acc : Vec F S512x1 .f32) : Vec F S512x1 .f32 :=
  k0_pay1 (k0_pay6 (idB m c t)) acc

/-- The sums accumulator after point `n`. -/
def accS (c : Dev nD) : (n : ℕ) → n < cfg0.N → Vec F S512x64 .f32
  | 0, h => stepS m c ⟨0, h⟩ (k0_pay4 (F := F))
  | n + 1, h => if (n + 1) % 16 = 0 then stepS m c ⟨n + 1, h⟩ (k0_pay4 (F := F))
      else stepS m c ⟨n + 1, h⟩ (accS c n (Nat.lt_of_succ_lt h))

/-- The counts accumulator after point `n`. -/
def accC (c : Dev nD) : (n : ℕ) → n < cfg0.N → Vec F S512x1 .f32
  | 0, h => stepC m c ⟨0, h⟩ (k0_pay5 (F := F))
  | n + 1, h => if (n + 1) % 16 = 0 then stepC m c ⟨n + 1, h⟩ (k0_pay5 (F := F))
      else stepC m c ⟨n + 1, h⟩ (accC c n (Nat.lt_of_succ_lt h))

theorem accS_reset (c : Dev nD) (n : ℕ) (h : n < cfg0.N) (h0 : n % 16 = 0) :
    accS m c n h = stepS m c ⟨n, h⟩ (k0_pay4 (F := F)) := by
  cases n with
  | zero => rfl
  | succ n => exact if_pos h0

theorem accS_step (c : Dev nD) (n : ℕ) (h : n + 1 < cfg0.N) (h0 : ¬(n + 1) % 16 = 0) :
    accS m c (n + 1) h = stepS m c ⟨n + 1, h⟩ (accS m c n (Nat.lt_of_succ_lt h)) := if_neg h0

theorem accC_reset (c : Dev nD) (n : ℕ) (h : n < cfg0.N) (h0 : n % 16 = 0) :
    accC m c n h = stepC m c ⟨n, h⟩ (k0_pay5 (F := F)) := by
  cases n with
  | zero => rfl
  | succ n => exact if_pos h0

theorem accC_step (c : Dev nD) (n : ℕ) (h : n + 1 < cfg0.N) (h0 : ¬(n + 1) % 16 = 0) :
    accC m c (n + 1) h = stepC m c ⟨n + 1, h⟩ (accC m c n (Nat.lt_of_succ_lt h)) := if_neg h0

/-- The two accumulators after point `n` hold the fold above: by induction on the point, each step by its case
    (first, middle or last step of a core). -/
theorem scratch_eq (c : Dev nD) : ∀ (n : ℕ) (h : n < cfg0.N),
    (outsAt0 m c n h).2.2.1 = accS m c n h ∧ (outsAt0 m c n h).2.2.2 = accC m c n h
  | 0, h => by
    have h0 : (⟨0, h⟩ : Fin cfg0.N).val % 16 = 0 := rfl
    have h1 : ¬(⟨0, h⟩ : Fin cfg0.N).val % 16 = 15 := by show ¬(0 % 16 = 15); decide
    rw [outsAt0_A m c ⟨0, h⟩ h0 h1]
    dsimp only
    exact ⟨sums_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) scM0_0 (Memref.isWhole_whole _) scM0_1 (Memref.isWhole_whole _) ((hcond0_0 ⟨0, h⟩).mpr h0) (fun hh => h1 ((hcond0_1 ⟨0, h⟩).mp hh)) (iblk m c 0 ⟨0, h⟩) (iblk m c 1 ⟨0, h⟩) (iblk m c 2 ⟨0, h⟩) (iblk m c 3 ⟨0, h⟩) (iblk m c 4 ⟨0, h⟩) (iblk m c 5 ⟨0, h⟩),
      counts_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) scM0_0 (Memref.isWhole_whole _) scM0_1 (Memref.isWhole_whole _) ((hcond0_0 ⟨0, h⟩).mpr h0) (fun hh => h1 ((hcond0_1 ⟨0, h⟩).mp hh)) (iblk m c 0 ⟨0, h⟩) (iblk m c 1 ⟨0, h⟩) (iblk m c 2 ⟨0, h⟩) (iblk m c 3 ⟨0, h⟩) (iblk m c 4 ⟨0, h⟩) (iblk m c 5 ⟨0, h⟩)⟩
  | n + 1, h => by
    have hN : n + 1 < 32 := lt_of_lt_of_eq h (show cfg0.N = 32 from N_0)
    have ih := scratch_eq c n (Nat.lt_of_succ_lt h)
    by_cases h0 : (⟨n + 1, h⟩ : Fin cfg0.N).val % 16 = 0
    · have h1 : ¬(⟨n + 1, h⟩ : Fin cfg0.N).val % 16 = 15 := by dsimp only at h0 ⊢; omega
      rw [outsAt0_A m c ⟨n + 1, h⟩ h0 h1, accS_reset m c (n + 1) h h0, accC_reset m c (n + 1) h h0]
      dsimp only
      exact ⟨sums_A c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) scM0_0 (Memref.isWhole_whole _) scM0_1 (Memref.isWhole_whole _) ((hcond0_0 ⟨n + 1, h⟩).mpr h0) (fun hh => h1 ((hcond0_1 ⟨n + 1, h⟩).mp hh)) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩),
        counts_A c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) scM0_0 (Memref.isWhole_whole _) scM0_1 (Memref.isWhole_whole _) ((hcond0_0 ⟨n + 1, h⟩).mpr h0) (fun hh => h1 ((hcond0_1 ⟨n + 1, h⟩).mp hh)) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩)⟩
    · rw [accS_step m c n h h0, accC_step m c n h h0, ← ih.1, ← ih.2]
      by_cases h1 : (⟨n + 1, h⟩ : Fin cfg0.N).val % 16 = 15
      · rw [outsAt0_C m c ⟨n + 1, h⟩ h0 h1]
        dsimp only
        exact ⟨sums_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) scM0_0 (Memref.isWhole_whole _) scM0_1 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) _ _,
          counts_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) scM0_0 (Memref.isWhole_whole _) scM0_1 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) _ _⟩
      · rw [outsAt0_B m c ⟨n + 1, h⟩ h0 h1]
        dsimp only
        exact ⟨sums_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) scM0_0 (Memref.isWhole_whole _) scM0_1 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) _ _,
          counts_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) scM0_0 (Memref.isWhole_whole _) scM0_1 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) _ _⟩

/-- At a core's last point the sums output's block is the sums accumulator there with a leading unit axis, and the counts
    output's block the counts accumulator likewise. -/
theorem outs_last (c : Dev nD) (t : Fin cfg0.N) (h1 : t.val % 16 = 15) :
    (outsAt0 m c t.val t.isLt).1 = k0_pay2 (accS m c t.val t.isLt)
    ∧ (outsAt0 m c t.val t.isLt).2.1 = k0_pay3 (accC m c t.val t.isLt) := by
  have hN : t.val < 32 := lt_of_lt_of_eq t.isLt (show cfg0.N = 32 from N_0)
  have h0 : ¬t.val % 16 = 0 := by omega
  obtain ⟨n, hn⟩ := t
  cases n with
  | zero => exact absurd h1 (by show ¬(0 % 16 = 15); decide)
  | succ n =>
    have ih := scratch_eq m c n (Nat.lt_of_succ_lt hn)
    dsimp only at h0 h1 ⊢
    rw [accS_step m c n hn h0, accC_step m c n hn h0, ← ih.1, ← ih.2, outsAt0_C m c ⟨n + 1, hn⟩ h0 h1]
    dsimp only
    exact ⟨out_sums_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun hh => h0 ((hcond0_0 ⟨n + 1, hn⟩).mp hh)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) _ _,
      out_counts_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun hh => h0 ((hcond0_0 ⟨n + 1, hn⟩).mp hh)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) _ _⟩

end Cert.KernelIdeal.Fold

end
-- ==== Proof.KValue.lean ====
/-
  The kernel program's run, read as values.

  Before the region the host computes the aggregated node features `z`, transposes them, and views the graph ids
  and the two biases as rows; the region's windows cut these into blocks: point `t` gets nodes `8192 t … 8192 t + 8191`
  and the whole parameter arrays. After the region each output array holds, at core `q`, what that core's accumulator
  held after its last point `16 q + 15` (the only points that write back), and the host's tail reads the result off
  the two output arrays.
-/
import proofs.«417854_j8297876816596_3_alg».proof.Proof.Gen.KernelIdeal.Frame
import Idealize.ShloMosaic.Lib.Pipeline.Value
import Idealize.ShloMosaic.Lib.Tactic
import proofs.«417854_j8297876816596_3_alg».proof.Proof.KFold
import Idealize.ShloMosaic.Lib.StableHlo.Run
import Idealize.ShloMosaic.Lib.ValueIdx
import Idealize.ShloMosaic.Lib.ValueLayout
set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable {F : FTy → Type} [FloatOps F]

open Cert.KernelIdeal.Fold Idealize.ShloMosaic.ValueIdx

variable (m : (ℓ : Loc nD τ sig) → Buf (Elt F) ℓ) (ρ : Dev nD → PrngReg)

/-! ## What the host writes before the region -/

/-- The edges' source ids and target ids: rows 0 and 1 of the edge list. -/
def srcK (x1 : (⟨S2x8388608, .i32⟩ : BufTy).Contents (Elt F)) : (⟨S8388608, .i32⟩ : BufTy).Contents (Elt F) :=
  shapeCast S8388608 (extractStridedSlice S1x8388608 ![0, 0] x1 slices_S2x8388608_S1x8388608_0_0) shapeCasts_S1x8388608_S8388608
def dstK (x1 : (⟨S2x8388608, .i32⟩ : BufTy).Contents (Elt F)) : (⟨S8388608, .i32⟩ : BufTy).Contents (Elt F) :=
  shapeCast S8388608 (extractStridedSlice S1x8388608 ![1, 0] x1 slices_S2x8388608_S1x8388608_1_0) shapeCasts_S1x8388608_S8388608

/-- The aggregated node features `z = x + Σ_neighbours x`: each edge's source row (a negative id counted from the end)
    gathered and added into its target's row, plus the node's own features. -/
def zK (x0 : (⟨S262144x4, .f32⟩ : BufTy).Contents (Elt F)) (x1 : (⟨S2x8388608, .i32⟩ : BufTy).Contents (Elt F)) :
    (⟨S262144x4, .f32⟩ : BufTy).Contents (Elt F) :=
  addf x0 (Host.scatterAdd scatter_S262144x4_S8388608x1_S8388608x4_1_0_0_1
    (broadcastInDim S262144x4 ![] bcast_S_S262144x4 (constant S_ .f32 0x00000000#32))
    (broadcastInDim S8388608x1 ![0] bcast_S8388608_S8388608x1_0 (dstK (F := F) x1))
    (Host.gather gather_S262144x4_S8388608x1_S8388608x4_1_0_n_n_0_1_14 x0
      (broadcastInDim S8388608x1 ![0] bcast_S8388608_S8388608x1_0
        (select (cmpi .slt (srcK (F := F) x1) (broadcastInDim S8388608 ![] bcast_S_S8388608 (constantI S_ 32 0#32)))
          (addi (srcK (F := F) x1) (broadcastInDim S8388608 ![] bcast_S_S8388608 (constantI S_ 32 262144#32)))
          (srcK (F := F) x1)))))

set_option maxHeartbeats 3200000 in
/-- The first window's array: `z` transposed. -/
theorem V15_eq (c : Dev nD) : (V m c main_v15 : S4x262144.Idx → Elt F .f32)
    = transpose S4x262144 [1, 0] (zK (m ((c : Thread nD τ).loc main_arg0)) (m ((c : Thread nD τ).loc main_arg1))) transposes_S262144x4_S4x262144_1_0 := by
  show StableHlo.after hostOps0 (fun b => m (c, b)) (Proc.devRef .tc main_v15) = _
  after_results
  rfl

/-- The second window's array: the graph ids as one row. -/
theorem V16_eq (c : Dev nD) : (V m c main_v16 : S1x262144.Idx → Elt F .i32)
    = shapeCast S1x262144 (m ((c : Thread nD τ).loc main_arg2)) shapeCasts_S262144_S1x262144 := by
  show StableHlo.after hostOps0 (fun b => m (c, b)) (Proc.devRef .tc main_v16) = _
  after_results
  rfl

/-- The fourth and sixth windows' arrays: the two biases as rows. -/
theorem V17_eq (c : Dev nD) : (V m c main_v17 : S1x64.Idx → Elt F .f32)
    = shapeCast S1x64 (m ((c : Thread nD τ).loc main_arg4)) shapeCasts_S64_S1x64 := by
  show StableHlo.after hostOps0 (fun b => m (c, b)) (Proc.devRef .tc main_v17) = _
  after_results
  rfl

theorem V18_eq (c : Dev nD) : (V m c main_v18 : S1x64.Idx → Elt F .f32)
    = shapeCast S1x64 (m ((c : Thread nD τ).loc main_arg6)) shapeCasts_S64_S1x64 := by
  show StableHlo.after hostOps0 (fun b => m (c, b)) (Proc.devRef .tc main_v18) = _
  after_results
  rfl

/-! ## The windows' blocks -/

/-- The printed index maps over the grid: the node windows' block is `t` along the nodes, the parameter windows' block
    is the whole array, and an output's block is the core `t / 16`. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 3) = t.val / 16 ∧ win0_6.index t (1 : Fin 3) = 0 ∧ win0_6.index t (2 : Fin 3) = 0
    ∧ win0_7.index t (0 : Fin 3) = t.val / 16 ∧ win0_7.index t (1 : Fin 3) = 0 ∧ win0_7.index t (2 : Fin 3) = 0 :=
  (by decide +kernel : ∀ t : Fin grid0.N, _)

/-- Feature `a` of lane `r` of point `t`'s node block is feature `a` of node `8192 t + r`. -/
theorem ztB_apply (c : Dev nD) (t : Fin cfg0.N) (a : Fin 4) (r : Fin 8192) (n : Fin 262144)
    (hn : n.val = 8192 * t.val + r.val) :
    ztB m c t (ix2 a r) = zK (m ((c : Thread nD τ).loc main_arg0)) (m ((c : Thread nD τ).loc main_arg1)) (ix2 n a) := by
  obtain ⟨e0, e1, -⟩ := idx_facts t
  unfold ztB iblk
  rw [View.read_apply]
  show V m c main_v15 (((cfg0.win 0).blk t).view.emb (ix2 a r)) = _
  rw [V15_eq]
  refine (congrArg _ (?_ : _ = ix2 a n)).trans (transpose_ix2_apply _ _ a n)
  funext x
  apply Fin.ext
  match x with
  | ⟨0, _⟩ => show win0_0.index t (0 : Fin 2) * 4 + 1 * a.val = a.val; omega
  | ⟨1, _⟩ => show win0_0.index t (1 : Fin 2) * 8192 + 1 * r.val = n.val; omega

/-- Lane `r` of point `t`'s id block is the id of node `8192 t + r`. -/
theorem idB_apply (c : Dev nD) (t : Fin cfg0.N) (r : Fin 8192) (n : Fin 262144)
    (hn : n.val = 8192 * t.val + r.val) :
    idB m c t (ix2 (0 : Fin 1) r) = (m ((c : Thread nD τ).loc main_arg2)) (ix1 n) := by
  obtain ⟨-, -, e0, e1, -⟩ := idx_facts t
  unfold idB iblk
  rw [View.read_apply]
  show V m c main_v16 (((cfg0.win 1).blk t).view.emb (ix2 (0 : Fin 1) r)) = _
  rw [V16_eq]
  refine shapeCast_apply _ _ _ _ ?_
  show (S262144.rowMajor (ix1 n)).val = (S1x262144.rowMajor (((cfg0.win 1).blk t).view.emb (ix2 (0 : Fin 1) r))).val
  rw [Shape.rowMajor_val_one, Shape.rowMajor_val_two]
  show n.val = (win0_1.index t (0 : Fin 2) * 1 + 1 * 0) * 262144 + (win0_1.index t (1 : Fin 2) * 8192 + 1 * r.val)
  omega

/-- The weights' blocks are the whole arrays. -/
theorem w1B_apply (c : Dev nD) (t : Fin cfg0.N) (a : Fin 4) (j : Fin 64) :
    w1B m c t (ix2 a j) = (m ((c : Thread nD τ).loc main_arg3)) (ix2 a j) := by
  obtain ⟨-, -, -, -, e0, e1, -⟩ := idx_facts t
  unfold w1B iblk
  rw [View.read_apply]
  show V m c main_arg3 (((cfg0.win 2).blk t).view.emb (ix2 a j)) = _
  rw [V_main_arg3]
  refine congrArg _ (funext fun x => Fin.ext ?_)
  match x with
  | ⟨0, _⟩ => show win0_2.index t (0 : Fin 2) * 4 + 1 * a.val = a.val; omega
  | ⟨1, _⟩ => show win0_2.index t (1 : Fin 2) * 64 + 1 * j.val = j.val; omega

theorem w2B_apply (c : Dev nD) (t : Fin cfg0.N) (a : Fin 64) (j : Fin 64) :
    w2B m c t (ix2 a j) = (m ((c : Thread nD τ).loc main_arg5)) (ix2 a j) := by
  obtain ⟨-, -, -, -, -, -, -, -, e0, e1, -⟩ := idx_facts t
  unfold w2B iblk
  rw [View.read_apply]
  show V m c main_arg5 (((cfg0.win 4).blk t).view.emb (ix2 a j)) = _
  rw [V_main_arg5]
  refine congrArg _ (funext fun x => Fin.ext ?_)
  match x with
  | ⟨0, _⟩ => show win0_4.index t (0 : Fin 2) * 64 + 1 * a.val = a.val; omega
  | ⟨1, _⟩ => show win0_4.index t (1 : Fin 2) * 64 + 1 * j.val = j.val; omega

/-- The biases' blocks are the biases as rows. -/
theorem b1B_apply (c : Dev nD) (t : Fin cfg0.N) (j : Fin 64) :
    b1B m c t (ix2 (0 : Fin 1) j) = (m ((c : Thread nD τ).loc main_arg4)) (ix1 j) := by
  obtain ⟨-, -, -, -, -, -, e0, e1, -⟩ := idx_facts t
  unfold b1B iblk
  rw [View.read_apply]
  show V m c main_v17 (((cfg0.win 3).blk t).view.emb (ix2 (0 : Fin 1) j)) = _
  rw [V17_eq]
  refine shapeCast_apply _ _ _ _ ?_
  show (S64.rowMajor (ix1 j)).val = (S1x64.rowMajor (((cfg0.win 3).blk t).view.emb (ix2 (0 : Fin 1) j))).val
  rw [Shape.rowMajor_val_one, Shape.rowMajor_val_two]
  show j.val = (win0_3.index t (0 : Fin 2) * 1 + 1 * 0) * 64 + (win0_3.index t (1 : Fin 2) * 64 + 1 * j.val)
  omega

theorem b2B_apply (c : Dev nD) (t : Fin cfg0.N) (j : Fin 64) :
    b2B m c t (ix2 (0 : Fin 1) j) = (m ((c : Thread nD τ).loc main_arg6)) (ix1 j) := by
  obtain ⟨-, -, -, -, -, -, -, -, -, -, e0, e1, -⟩ := idx_facts t
  unfold b2B iblk
  rw [View.read_apply]
  show V m c main_v18 (((cfg0.win 5).blk t).view.emb (ix2 (0 : Fin 1) j)) = _
  rw [V18_eq]
  refine shapeCast_apply _ _ _ _ ?_
  show (S64.rowMajor (ix1 j)).val = (S1x64.rowMajor (((cfg0.win 5).blk t).view.emb (ix2 (0 : Fin 1) j))).val
  rw [Shape.rowMajor_val_one, Shape.rowMajor_val_two]
  show j.val = (win0_5.index t (0 : Fin 2) * 1 + 1 * 0) * 64 + (win0_5.index t (1 : Fin 2) * 64 + 1 * j.val)
  omega

/-! ## The output arrays -/

theorem lastPt (q : ℕ) (hq : q < 2) : 16 * q + 15 < cfg0.N := by
  rw [show cfg0.N = 32 from N_0]; omega

theorem accS_congr (c : Dev nD) {n n' : ℕ} (e : n = n') (h : n < cfg0.N) (h' : n' < cfg0.N) :
    accS m c n h = accS m c n' h' := by subst e; rfl

theorem accC_congr (c : Dev nD) {n n' : ℕ} (e : n = n') (h : n < cfg0.N) (h' : n' < cfg0.N) :
    accC m c n h = accC m c n' h' := by subst e; rfl

/-- The sums output after the run: at core `q` the sums accumulator after that core's last point. -/
def partS (c : Dev nD) : Vec F S2x512x64 .f32 := fun i =>
  accS m c (16 * (i 0).val + 15) (lastPt _ (i 0).isLt) (ix2 (⟨(i 1).val, (i 1).isLt⟩ : Fin 512) (⟨(i 2).val, (i 2).isLt⟩ : Fin 64))

/-- The counts output after the run: at core `q` the counts accumulator after that core's last point. -/
def partC (c : Dev nD) : Vec F S2x512x1 .f32 := fun i =>
  accC m c (16 * (i 0).val + 15) (lastPt _ (i 0).isLt) (ix2 (⟨(i 1).val, (i 1).isLt⟩ : Fin 512) (⟨(i 2).val, (i 2).isLt⟩ : Fin 1))

/-- What a core's last point writes back to the sums output is that core's slab of `partS`. -/
theorem flushed6 (c : Dev nD) (t : Fin cfg0.N) (hf : (cfg0.win 6).flush t = true) :
    (dats m 0 c).flushed 6 t = ((cfg0.win 6).blk t).view.read (Elt F) (partS m c) := by
  have h15 := (flush0_6 t).mp hf
  have hN : t.val < 32 := lt_of_lt_of_eq t.isLt (show cfg0.N = 32 from N_0)
  obtain ⟨-, -, -, -, -, -, -, -, -, -, -, -, e0, e1, e2, -⟩ := idx_facts t
  show (cfg0.win 6).cut (grid0.coords t) ((dats m 0 c).after 6 t) = _
  rw [after0_6, (outs_last m c t h15).1]
  funext j
  rw [View.read_apply]
  have hj0 : (j 0).val < 1 := (j 0).isLt
  have hv0 : ((((cfg0.win 6).blk t).view.emb j) 0).val = t.val / 16 := by
    show win0_6.index t (0 : Fin 3) * 1 + 1 * (j 0).val = _; omega
  have hv1 : ((((cfg0.win 6).blk t).view.emb j) 1).val = (j 1).val := by
    show win0_6.index t (1 : Fin 3) * 512 + 1 * (j 1).val = _; omega
  have hv2 : ((((cfg0.win 6).blk t).view.emb j) 2).val = (j 2).val := by
    show win0_6.index t (2 : Fin 3) * 64 + 1 * (j 2).val = _; omega
  show k0_pay2 (accS m c t.val t.isLt) j = partS m c (((cfg0.win 6).blk t).view.emb j)
  unfold k0_pay2 partS
  refine (shapeCast_apply _ shapeCasts_S512x64_S1x512x64 j (ix2 (⟨(j 1).val, (j 1).isLt⟩ : Fin 512) (⟨(j 2).val, (j 2).isLt⟩ : Fin 64)) ?_).trans ?_
  · rw [Shape.rowMajor_val_two, Shape.rowMajor_val_three]
    show (j 1).val * 64 + (j 2).val = ((j 0).val * 512 + (j 1).val) * 64 + (j 2).val
    omega
  · refine (congrFun (accS_congr m c (show t.val = 16 * ((((cfg0.win 6).blk t).view.emb j) 0).val + 15 by omega) t.isLt (lastPt _ (by omega))) _).trans ?_
    refine congrArg _ (funext fun a => Fin.ext ?_)
    match a with
    | ⟨0, _⟩ => exact hv1.symm
    | ⟨1, _⟩ => exact hv2.symm

theorem flushed7 (c : Dev nD) (t : Fin cfg0.N) (hf : (cfg0.win 7).flush t = true) :
    (dats m 0 c).flushed 7 t = ((cfg0.win 7).blk t).view.read (Elt F) (partC m c) := by
  have h15 := (flush0_7 t).mp hf
  have hN : t.val < 32 := lt_of_lt_of_eq t.isLt (show cfg0.N = 32 from N_0)
  obtain ⟨-, -, -, -, -, -, -, -, -, -, -, -, -, -, -, e0, e1, e2⟩ := idx_facts t
  show (cfg0.win 7).cut (grid0.coords t) ((dats m 0 c).after 7 t) = _
  rw [after0_7, (outs_last m c t h15).2]
  funext j
  rw [View.read_apply]
  have hj0 : (j 0).val < 1 := (j 0).isLt
  have hj2 : (j 2).val < 1 := (j 2).isLt
  have hv0 : ((((cfg0.win 7).blk t).view.emb j) 0).val = t.val / 16 := by
    show win0_7.index t (0 : Fin 3) * 1 + 1 * (j 0).val = _; omega
  have hv1 : ((((cfg0.win 7).blk t).view.emb j) 1).val = (j 1).val := by
    show win0_7.index t (1 : Fin 3) * 512 + 1 * (j 1).val = _; omega
  have hv2 : ((((cfg0.win 7).blk t).view.emb j) 2).val = (j 2).val := by
    show win0_7.index t (2 : Fin 3) * 1 + 1 * (j 2).val = _; omega
  show k0_pay3 (accC m c t.val t.isLt) j = partC m c (((cfg0.win 7).blk t).view.emb j)
  unfold k0_pay3 partC
  refine (shapeCast_apply _ shapeCasts_S512x1_S1x512x1 j (ix2 (⟨(j 1).val, (j 1).isLt⟩ : Fin 512) (⟨(j 2).val, (j 2).isLt⟩ : Fin 1)) ?_).trans ?_
  · rw [Shape.rowMajor_val_two, Shape.rowMajor_val_three]
    show (j 1).val * 1 + (j 2).val = ((j 0).val * 512 + (j 1).val) * 1 + (j 2).val
    omega
  · refine (congrFun (accC_congr m c (show t.val = 16 * ((((cfg0.win 7).blk t).view.emb j) 0).val + 15 by omega) t.isLt (lastPt _ (by omega))) _).trans ?_
    refine congrArg _ (funext fun a => Fin.ext ?_)
    match a with
    | ⟨0, _⟩ => exact hv1.symm
    | ⟨1, _⟩ => exact hv2.symm

/-- Every entry of the sums output lies in the slab of its core's last point. -/
theorem cover6 (i : S2x512x64.Idx) :
    ∃ t : Fin cfg0.N, (cfg0.win 6).flush t = true ∧ i ∈ ((cfg0.win 6).blk t).view.set := by
  have hi0 : (i 0).val < 2 := (i 0).isLt
  have hi1 : (i 1).val < 512 := (i 1).isLt
  have hi2 : (i 2).val < 64 := (i 2).isLt
  refine ⟨⟨16 * (i 0).val + 15, lastPt _ hi0⟩, (flush0_6 _).mpr (by show (16 * (i 0).val + 15) % 16 = 15; omega), ?_⟩
  obtain ⟨-, -, -, -, -, -, -, -, -, -, -, -, e0, e1, e2, -⟩ := idx_facts ⟨16 * (i 0).val + 15, lastPt _ hi0⟩
  have e0' : win0_6.index ⟨16 * (i 0).val + 15, lastPt _ hi0⟩ (0 : Fin 3) = (i 0).val := by rw [e0]; show (16 * (i 0).val + 15) / 16 = _; omega
  show i ∈ ((View.whole main_v19_0).slice (win0_6.rect ⟨16 * (i 0).val + 15, lastPt _ hi0⟩)).set
  rw [View.set_slice_whole, Rect.mem_set_unit]
  intro a
  match a with
  | ⟨0, _⟩ =>
    show win0_6.index ⟨16 * (i 0).val + 15, lastPt _ hi0⟩ (0 : Fin 3) * 1 ≤ (i 0).val
      ∧ (i 0).val < win0_6.index ⟨16 * (i 0).val + 15, lastPt _ hi0⟩ (0 : Fin 3) * 1 + 1
    omega
  | ⟨1, _⟩ =>
    show win0_6.index ⟨16 * (i 0).val + 15, lastPt _ hi0⟩ (1 : Fin 3) * 512 ≤ (i 1).val
      ∧ (i 1).val < win0_6.index ⟨16 * (i 0).val + 15, lastPt _ hi0⟩ (1 : Fin 3) * 512 + 512
    omega
  | ⟨2, _⟩ =>
    show win0_6.index ⟨16 * (i 0).val + 15, lastPt _ hi0⟩ (2 : Fin 3) * 64 ≤ (i 2).val
      ∧ (i 2).val < win0_6.index ⟨16 * (i 0).val + 15, lastPt _ hi0⟩ (2 : Fin 3) * 64 + 64
    omega

theorem cover7 (i : S2x512x1.Idx) :
    ∃ t : Fin cfg0.N, (cfg0.win 7).flush t = true ∧ i ∈ ((cfg0.win 7).blk t).view.set := by
  have hi0 : (i 0).val < 2 := (i 0).isLt
  have hi1 : (i 1).val < 512 := (i 1).isLt
  have hi2 : (i 2).val < 1 := (i 2).isLt
  refine ⟨⟨16 * (i 0).val + 15, lastPt _ hi0⟩, (flush0_7 _).mpr (by show (16 * (i 0).val + 15) % 16 = 15; omega), ?_⟩
  obtain ⟨-, -, -, -, -, -, -, -, -, -, -, -, -, -, -, e0, e1, e2⟩ := idx_facts ⟨16 * (i 0).val + 15, lastPt _ hi0⟩
  have e0' : win0_7.index ⟨16 * (i 0).val + 15, lastPt _ hi0⟩ (0 : Fin 3) = (i 0).val := by rw [e0]; show (16 * (i 0).val + 15) / 16 = _; omega
  show i ∈ ((View.whole main_v19_1).slice (win0_7.rect ⟨16 * (i 0).val + 15, lastPt _ hi0⟩)).set
  rw [View.set_slice_whole, Rect.mem_set_unit]
  intro a
  match a with
  | ⟨0, _⟩ =>
    show win0_7.index ⟨16 * (i 0).val + 15, lastPt _ hi0⟩ (0 : Fin 3) * 1 ≤ (i 0).val
      ∧ (i 0).val < win0_7.index ⟨16 * (i 0).val + 15, lastPt _ hi0⟩ (0 : Fin 3) * 1 + 1
    omega
  | ⟨1, _⟩ =>
    show win0_7.index ⟨16 * (i 0).val + 15, lastPt _ hi0⟩ (1 : Fin 3) * 512 ≤ (i 1).val
      ∧ (i 1).val < win0_7.index ⟨16 * (i 0).val + 15, lastPt _ hi0⟩ (1 : Fin 3) * 512 + 512
    omega
  | ⟨2, _⟩ =>
    show win0_7.index ⟨16 * (i 0).val + 15, lastPt _ hi0⟩ (2 : Fin 3) * 1 ≤ (i 2).val
      ∧ (i 2).val < win0_7.index ⟨16 * (i 0).val + 15, lastPt _ hi0⟩ (2 : Fin 3) * 1 + 1
    omega

/-- The sums output array after the run. -/
theorem final6 (c : Dev nD) : (dats m 0 c).arrAt 6 cfg0.N = partS m c :=
  (dats m 0 c).arrAt_eq_of_cover 6 (partS m c) (flushed6 m c) cover6

/-- The counts output array after the run. -/
theorem final7 (c : Dev nD) : (dats m 0 c).arrAt 7 cfg0.N = partC m c :=
  (dats m 0 c).arrAt_eq_of_cover 7 (partC m c) (flushed7 m c) cover7

/-! ## The host's tail -/

/-- The lines after the region, as one function of the two output arrays and the read-out's parameters: the two cores'
    slabs are added, the sums divided by the counts (at least one), and the quotient projected and shifted. -/
def tailK (P : (⟨S2x512x64, .f32⟩ : BufTy).Contents (Elt F)) (Q : (⟨S2x512x1, .f32⟩ : BufTy).Contents (Elt F))
    (Wl : (⟨S64x128, .f32⟩ : BufTy).Contents (Elt F)) (bl : (⟨S128, .f32⟩ : BufTy).Contents (Elt F)) :
    (⟨S512x128, .f32⟩ : BufTy).Contents (Elt F) :=
  addf (Host.dotGeneral dot_S512x64_S64x128_S512x128_1_0_0_1_n_n none
      (Host.divf (Host.reduceAdd P (constant S_ .f32 0x00000000#32) reducesTo_S2x512x64_S512x64_d0 h_S_)
        (broadcastInDim S512x64 ![0, 1] bcast_S512x1_S512x64_0_1
          (maximumf (Host.reduceAdd Q (constant S_ .f32 0x00000000#32) reducesTo_S2x512x1_S512x1_d0 h_S_)
            (broadcastInDim S512x1 ![] bcast_S_S512x1 (constant S_ .f32 0x3F800000#32)))))
      Wl)
    (broadcastInDim S512x128 ![0, 1] bcast_S1x128_S512x128_0_1 (broadcastInDim S1x128 ![1] bcast_S128_S1x128_1 bl))

/-- The result buffer after the tail. -/
theorem tail_eq (c : Dev nD) :
    Pipeline.afterTail₀ cfgs (dats m) 0 (V0 m) [hostOps1] c main_v29
      = tailK (partS m c) (partC m c) (m ((c : Thread nD τ).loc main_arg7)) (m ((c : Thread nD τ).loc main_arg8)) := by
  have h6 : Pipeline.withArrays (cfgs 0).spec c (V0 m c) (fun w => (dats m 0 c).arrAt w (cfgs 0).N) (Proc.devRef .tc main_v19_0)
      = partS m c := (Pipeline.withArrays_arr spec0 launch0.win.arr_inj c _ _ 6).trans (final6 m c)
  have h7 : Pipeline.withArrays (cfgs 0).spec c (V0 m c) (fun w => (dats m 0 c).arrAt w (cfgs 0).N) (Proc.devRef .tc main_v19_1)
      = partC m c := (Pipeline.withArrays_arr spec0 launch0.win.arr_inj c _ _ 7).trans (final7 m c)
  have h8 : Pipeline.withArrays (cfgs 0).spec c (V0 m c) (fun w => (dats m 0 c).arrAt w (cfgs 0).N) (Proc.devRef .tc main_arg7)
      = (m ((c : Thread nD τ).loc main_arg7)) :=
    (Pipeline.withArrays_of_ne _ c (V0 m c) _ main_arg7 (by exact (by decide : ∀ w, Pipeline.arrRef spec0 w ≠ main_arg7))).trans (V_main_arg7 m c)
  have h9 : Pipeline.withArrays (cfgs 0).spec c (V0 m c) (fun w => (dats m 0 c).arrAt w (cfgs 0).N) (Proc.devRef .tc main_arg8)
      = (m ((c : Thread nD τ).loc main_arg8)) :=
    (Pipeline.withArrays_of_ne _ c (V0 m c) _ main_arg8 (by exact (by decide : ∀ w, Pipeline.arrRef spec0 w ≠ main_arg8))).trans (V_main_arg8 m c)
  unfold Pipeline.afterTail₀
  show StableHlo.after hostOps1 _ (Proc.devRef .tc main_v29) = _
  after_results
  rw [h6, h7, h8, h9]
  rfl

/-! ## The run -/

/-- Every weakly fair execution of the kernel's program terminates with the result buffer at the tail of the two output
    arrays and every argument unchanged. -/
theorem run : θ_run defs (onTc (τ := τ) (main (F := F))) ⟨m, fun _ => 0, ρ⟩ (fun r => ∀ c : Dev nD,
      r.2.mem ((c.tc : Thread nD τ).loc main_v29) = tailK (partS m c) (partC m c) (m ((c : Thread nD τ).loc main_arg7)) (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_v29 (Pipeline.mem_restRefs_of main_v29 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 2).trans (((dats m 0 c).arrAt_in 2 rfl _).trans ((A_eq m c 2).trans (V_main_arg3 m c))),
      ((h c).2 main_arg4 (Pipeline.mem_restRefs_of main_arg4 (by decide) (by decide))).trans (W_main_arg4 m (dats m) c),
      ((h c).1 4).trans (((dats m 0 c).arrAt_in 4 rfl _).trans ((A_eq m c 4).trans (V_main_arg5 m c))),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

end Cert.KernelIdeal.Value

end
-- ==== Proof.Hidden.lean ====
/-
  The two pure functions both programs compute around the pooling.

  A node's hidden features: with `zr` its four aggregated input features, the two-layer perceptron
  `relu (zr · W1 + b1) · W2 + b2`. And the read-out: each graph's summed features divided by its node count, at least
  one, then projected by `Wl` and shifted by `bl`.
-/
import Idealize.ShloMosaic.PureOps.Ideal
import Idealize.ShloMosaic.Lib.ValueIdx

noncomputable section

open scoped BigOperators

namespace Cert.GinPool

open Idealize.ShloMosaic Idealize.ShloMosaic.ValueIdx

/-- Feature `k` of the hidden layer of a node with input features `zr`. -/
def hidRow (zr : Fin 4 → EReal) (W1 : (⟨2, ![4, 64]⟩ : Shape).Idx → EReal) (b1 : Fin 64 → EReal)
    (W2 : (⟨2, ![64, 64]⟩ : Shape).Idx → EReal) (b2 : Fin 64 → EReal) (k : Fin 64) : EReal :=
  (∑ j : Fin 64, max ((∑ a : Fin 4, zr a * W1 (ix2 a j)) + b1 j) 0 * W2 (ix2 j k)) + b2 k

/-- Output `o` of graph `g`: the mean of its nodes' hidden features (sums `S` over counts `C`, a count below one
    read as one), projected. -/
def readOut (S : Fin 512 → Fin 64 → EReal) (C : Fin 512 → EReal) (Wl : (⟨2, ![64, 128]⟩ : Shape).Idx → EReal)
    (bl : Fin 128 → EReal) (g : Fin 512) (o : Fin 128) : EReal :=
  (∑ k : Fin 64, Ideal.div (S g k) (max (C g) (Ideal.ofBits .f32 0x3F800000#32)) * Wl (ix2 k o)) + bl o

end Cert.GinPool

end
-- ==== Proof.LibBlockSum.lean ====
/-
  Three general facts: a sum over B·R indices taken block by block, a 32-bit word read as a small natural number, and an
  indicator times an extended real.
-/
import Mathlib.Logic.Equiv.Fin.Basic
import Mathlib.Data.Fintype.BigOperators
import Mathlib.Algebra.BigOperators.Group.Finset.Defs
import Mathlib.Data.EReal.Operations

noncomputable section

open scoped BigOperators

namespace Cert.LibBlockSum

/-! ## A sum over B·R indices, block by block -/

/-- Entry `r` of block `t`, among `N = B * R` indices cut into `B` consecutive blocks of `R`: the index `R * t + r`. -/
def blockIdx {B R N : Nat} (h : B * R = N) (t : Fin B) (r : Fin R) : Fin N :=
  ⟨R * t.val + r.val, by
    have ht := t.isLt
    have hr := r.isLt
    calc R * t.val + r.val < R * t.val + R := by omega
      _ = R * (t.val + 1) := by rw [Nat.mul_succ]
      _ ≤ R * B := Nat.mul_le_mul_left _ ht
      _ = N := by rw [Nat.mul_comm]; exact h⟩

/-- Its value is `R * t + r`. -/
theorem blockIdx_val {B R N : Nat} (h : B * R = N) (t : Fin B) (r : Fin R) :
    (blockIdx h t r).val = R * t.val + r.val := rfl

/-- A sum over `N = B * R` indices is the sum over the `B` blocks of the sum over each block's `R` entries. -/
theorem sum_blocks {M : Type*} [AddCommMonoid M] {B R N : Nat} (h : B * R = N) (f : Fin N → M) :
    ∑ n : Fin N, f n = ∑ t : Fin B, ∑ r : Fin R, f (blockIdx h t r) := by
  subst h
  rw [← Equiv.sum_comp (finProdFinEquiv (m := B) (n := R)) f, Fintype.sum_prod_type]
  refine Finset.sum_congr rfl fun t _ => Finset.sum_congr rfl fun r _ => congrArg f (Fin.ext ?_)
  show r.val + R * t.val = R * t.val + r.val
  exact Nat.add_comm _ _

/-! ## A 32-bit word that is a small natural number -/

/-- A 32-bit word is the word of a natural number `g` below `2 ^ 31` exactly when, read as a signed integer, it is `g`. -/
theorem eq_ofNat_iff_toInt_eq (b : BitVec 32) (g : Nat) (hg : g < 2 ^ 31) :
    b = BitVec.ofNat 32 g ↔ b.toInt = (g : Int) := by
  have e : (BitVec.ofNat 32 g).toInt = (g : Int) := by
    rw [BitVec.toInt_eq_toNat_of_lt (by rw [BitVec.toNat_ofNat]; omega), BitVec.toNat_ofNat]
    omega
  rw [← e]
  exact BitVec.toInt_inj.symm

/-! ## An indicator times an extended real -/

/-- One or zero, by a condition, times an extended real is the real or zero, by the condition. -/
theorem ite_one_zero_mul (p : Prop) [Decidable p] (x : EReal) :
    (if p then (1 : EReal) else 0) * x = if p then x else 0 := by
  split
  · exact one_mul x
  · exact zero_mul x

/-- The example: 100000 indices as 20 blocks of 5000 (name the two factors: the product alone does not determine them). -/
example {M : Type*} [AddCommMonoid M] (f : Fin 100000 → M) :
    ∑ n : Fin 100000, f n = ∑ t : Fin 20, ∑ r : Fin 5000, f (blockIdx (B := 20) (R := 5000) (N := 100000) (by norm_num) t r) :=
  sum_blocks (B := 20) (R := 5000) (by norm_num) f

end Cert.LibBlockSum

end
-- ==== Proof.KBlock.lean ====
/-
  One block's contribution, read index by index at the ideal instance.

  A grid point holds a block of 8192 nodes: their aggregated features (transposed), their graph ids, and the
  perceptron's parameters. Its update of the sums accumulator adds, at graph `g` and feature `k`, the sum over the
  block's nodes whose id is `g` of the node's hidden feature `k`: the one-hot entry `(g, r)` is one when node `r`'s id,
  a 32-bit word, is the word of `g`, and zero otherwise, and one or zero times an extended real is that real or zero.
  Its update of the counts accumulator adds the number of such nodes.
-/
import proofs.«417854_j8297876816596_3_alg».proof.Proof.Gen.KernelIdeal.Skeleton
import proofs.«417854_j8297876816596_3_alg».proof.Proof.Hidden
import proofs.«417854_j8297876816596_3_alg».proof.Proof.LibBlockSum
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Block

open Cert.KernelIdeal Cert.KernelIdeal.Gen Idealize.ShloMosaic Idealize.ShloMosaic.ValueIdx Cert.GinPool Cert.LibBlockSum

/-! ## The three matrix products, read at an index -/

/-- The first layer's product: the block of node features is held transposed, 4 feature rows by 8192 nodes, and contracted on its leading axis, so node `p`'s entry `c` is the sum over the four features `k` of feature `k` of node `p` times `W1[k, c]`. -/
theorem mmA_lhs_0 (i : S8192x64.Idx) (q : dot_S4x8192_S4x64_S8192x64_0_0_1_1_n_n.contr.Idx) :
    (dot_S4x8192_S4x64_S8192x64_0_0_1_1_n_n.lhsIdx i q 0).val = (q ⟨0, by decide⟩).val :=
  dot_S4x8192_S4x64_S8192x64_0_0_1_1_n_n.lhsIdx_val_of_single rfl i q
theorem mmA_lhs_1 (i : S8192x64.Idx) (q : dot_S4x8192_S4x64_S8192x64_0_0_1_1_n_n.contr.Idx) :
    (dot_S4x8192_S4x64_S8192x64_0_0_1_1_n_n.lhsIdx i q 1).val = (i 0).val := by
  unfold DotDims.lhsIdx
  rw [dif_neg (show ¬(1 : Fin S4x8192.rank) ∈ dot_S4x8192_S4x64_S8192x64_0_0_1_1_n_n.lhsBatch by decide), dif_pos (show (1 : Fin S4x8192.rank) ∈ dot_S4x8192_S4x64_S8192x64_0_0_1_1_n_n.lhsNonContracting by decide)]
  rfl
theorem mmA_rhs_0 (i : S8192x64.Idx) (q : dot_S4x8192_S4x64_S8192x64_0_0_1_1_n_n.contr.Idx) :
    (dot_S4x8192_S4x64_S8192x64_0_0_1_1_n_n.rhsIdx i q 0).val = (q ⟨0, by decide⟩).val :=
  dot_S4x8192_S4x64_S8192x64_0_0_1_1_n_n.rhsIdx_val_of_single rfl i q
theorem mmA_rhs_1 (i : S8192x64.Idx) (q : dot_S4x8192_S4x64_S8192x64_0_0_1_1_n_n.contr.Idx) :
    (dot_S4x8192_S4x64_S8192x64_0_0_1_1_n_n.rhsIdx i q 1).val = (i 1).val := by
  unfold DotDims.rhsIdx
  rw [dif_neg (show ¬(1 : Fin S4x64.rank) ∈ dot_S4x8192_S4x64_S8192x64_0_0_1_1_n_n.rhsBatch by decide), dif_pos (show (1 : Fin S4x64.rank) ∈ dot_S4x8192_S4x64_S8192x64_0_0_1_1_n_n.rhsNonContracting by decide)]
  rfl
theorem mmA_apply (l : FVec Ideal S4x8192 .f32) (r : FVec Ideal S4x64 .f32) (p : Fin 8192) (c : Fin 64) :
    matmul dot_S4x8192_S4x64_S8192x64_0_0_1_1_n_n none l r (constant S8192x64 .f32 0x00000000#32) (ix2 p c) = ∑ k : Fin 4, l (ix2 k p) * r (ix2 k c) := by
  simp only [matmul]
  rw [Ideal.matmul_constant_zero_apply, ← Equiv.sum_comp (contrEquiv1 dot_S4x8192_S4x64_S8192x64_0_0_1_1_n_n 4 rfl rfl).symm]
  refine Finset.sum_congr rfl fun k _ => ?_
  have hk := contrEquiv1_symm_val dot_S4x8192_S4x64_S8192x64_0_0_1_1_n_n 4 rfl rfl k
  have el : dot_S4x8192_S4x64_S8192x64_0_0_1_1_n_n.lhsIdx (ix2 p c) ((contrEquiv1 dot_S4x8192_S4x64_S8192x64_0_0_1_1_n_n 4 rfl rfl).symm k) = ix2 k p := funext fun a => Fin.ext (by
    match a with
    | ⟨0, _⟩ => exact (mmA_lhs_0 _ _).trans hk
    | ⟨1, _⟩ => exact mmA_lhs_1 _ _)
  have er : dot_S4x8192_S4x64_S8192x64_0_0_1_1_n_n.rhsIdx (ix2 p c) ((contrEquiv1 dot_S4x8192_S4x64_S8192x64_0_0_1_1_n_n 4 rfl rfl).symm k) = ix2 k c := funext fun a => Fin.ext (by
    match a with
    | ⟨0, _⟩ => exact (mmA_rhs_0 _ _).trans hk
    | ⟨1, _⟩ => exact mmA_rhs_1 _ _)
  rw [el, er]

/-- The second layer's product, rows times columns. -/
theorem mmB_lhs_0 (i : S8192x64.Idx) (q : dot_S8192x64_S64x64_S8192x64_1_0_0_1_n_n.contr.Idx) :
    (dot_S8192x64_S64x64_S8192x64_1_0_0_1_n_n.lhsIdx i q 0).val = (i 0).val := by
  unfold DotDims.lhsIdx
  rw [dif_neg (show ¬(0 : Fin S8192x64.rank) ∈ dot_S8192x64_S64x64_S8192x64_1_0_0_1_n_n.lhsBatch by decide), dif_pos (show (0 : Fin S8192x64.rank) ∈ dot_S8192x64_S64x64_S8192x64_1_0_0_1_n_n.lhsNonContracting by decide)]
  rfl
theorem mmB_lhs_1 (i : S8192x64.Idx) (q : dot_S8192x64_S64x64_S8192x64_1_0_0_1_n_n.contr.Idx) :
    (dot_S8192x64_S64x64_S8192x64_1_0_0_1_n_n.lhsIdx i q 1).val = (q ⟨0, by decide⟩).val :=
  dot_S8192x64_S64x64_S8192x64_1_0_0_1_n_n.lhsIdx_val_of_single rfl i q
theorem mmB_rhs_0 (i : S8192x64.Idx) (q : dot_S8192x64_S64x64_S8192x64_1_0_0_1_n_n.contr.Idx) :
    (dot_S8192x64_S64x64_S8192x64_1_0_0_1_n_n.rhsIdx i q 0).val = (q ⟨0, by decide⟩).val :=
  dot_S8192x64_S64x64_S8192x64_1_0_0_1_n_n.rhsIdx_val_of_single rfl i q
theorem mmB_rhs_1 (i : S8192x64.Idx) (q : dot_S8192x64_S64x64_S8192x64_1_0_0_1_n_n.contr.Idx) :
    (dot_S8192x64_S64x64_S8192x64_1_0_0_1_n_n.rhsIdx i q 1).val = (i 1).val := by
  unfold DotDims.rhsIdx
  rw [dif_neg (show ¬(1 : Fin S64x64.rank) ∈ dot_S8192x64_S64x64_S8192x64_1_0_0_1_n_n.rhsBatch by decide), dif_pos (show (1 : Fin S64x64.rank) ∈ dot_S8192x64_S64x64_S8192x64_1_0_0_1_n_n.rhsNonContracting by decide)]
  rfl
theorem mmB_apply (l : FVec Ideal S8192x64 .f32) (r : FVec Ideal S64x64 .f32) (p : Fin 8192) (c : Fin 64) :
    matmul dot_S8192x64_S64x64_S8192x64_1_0_0_1_n_n none l r (constant S8192x64 .f32 0x00000000#32) (ix2 p c) = ∑ k : Fin 64, l (ix2 p k) * r (ix2 k c) := by
  simp only [matmul]
  rw [Ideal.matmul_constant_zero_apply, ← Equiv.sum_comp (contrEquiv1 dot_S8192x64_S64x64_S8192x64_1_0_0_1_n_n 64 rfl rfl).symm]
  refine Finset.sum_congr rfl fun k _ => ?_
  have hk := contrEquiv1_symm_val dot_S8192x64_S64x64_S8192x64_1_0_0_1_n_n 64 rfl rfl k
  have el : dot_S8192x64_S64x64_S8192x64_1_0_0_1_n_n.lhsIdx (ix2 p c) ((contrEquiv1 dot_S8192x64_S64x64_S8192x64_1_0_0_1_n_n 64 rfl rfl).symm k) = ix2 p k := funext fun a => Fin.ext (by
    match a with
    | ⟨0, _⟩ => exact mmB_lhs_0 _ _
    | ⟨1, _⟩ => exact (mmB_lhs_1 _ _).trans hk)
  have er : dot_S8192x64_S64x64_S8192x64_1_0_0_1_n_n.rhsIdx (ix2 p c) ((contrEquiv1 dot_S8192x64_S64x64_S8192x64_1_0_0_1_n_n 64 rfl rfl).symm k) = ix2 k c := funext fun a => Fin.ext (by
    match a with
    | ⟨0, _⟩ => exact (mmB_rhs_0 _ _).trans hk
    | ⟨1, _⟩ => exact mmB_rhs_1 _ _)
  rw [el, er]

/-- The pooling product: graph `p`'s entry `c` is the sum over the block's 8192 nodes `k` of the one-hot entry of `(p, k)` times node `k`'s hidden feature `c`. -/
theorem mmC_lhs_0 (i : S512x64.Idx) (q : dot_S512x8192_S8192x64_S512x64_1_0_0_1_n_n.contr.Idx) :
    (dot_S512x8192_S8192x64_S512x64_1_0_0_1_n_n.lhsIdx i q 0).val = (i 0).val := by
  unfold DotDims.lhsIdx
  rw [dif_neg (show ¬(0 : Fin S512x8192.rank) ∈ dot_S512x8192_S8192x64_S512x64_1_0_0_1_n_n.lhsBatch by decide), dif_pos (show (0 : Fin S512x8192.rank) ∈ dot_S512x8192_S8192x64_S512x64_1_0_0_1_n_n.lhsNonContracting by decide)]
  rfl
theorem mmC_lhs_1 (i : S512x64.Idx) (q : dot_S512x8192_S8192x64_S512x64_1_0_0_1_n_n.contr.Idx) :
    (dot_S512x8192_S8192x64_S512x64_1_0_0_1_n_n.lhsIdx i q 1).val = (q ⟨0, by decide⟩).val :=
  dot_S512x8192_S8192x64_S512x64_1_0_0_1_n_n.lhsIdx_val_of_single rfl i q
theorem mmC_rhs_0 (i : S512x64.Idx) (q : dot_S512x8192_S8192x64_S512x64_1_0_0_1_n_n.contr.Idx) :
    (dot_S512x8192_S8192x64_S512x64_1_0_0_1_n_n.rhsIdx i q 0).val = (q ⟨0, by decide⟩).val :=
  dot_S512x8192_S8192x64_S512x64_1_0_0_1_n_n.rhsIdx_val_of_single rfl i q
theorem mmC_rhs_1 (i : S512x64.Idx) (q : dot_S512x8192_S8192x64_S512x64_1_0_0_1_n_n.contr.Idx) :
    (dot_S512x8192_S8192x64_S512x64_1_0_0_1_n_n.rhsIdx i q 1).val = (i 1).val := by
  unfold DotDims.rhsIdx
  rw [dif_neg (show ¬(1 : Fin S8192x64.rank) ∈ dot_S512x8192_S8192x64_S512x64_1_0_0_1_n_n.rhsBatch by decide), dif_pos (show (1 : Fin S8192x64.rank) ∈ dot_S512x8192_S8192x64_S512x64_1_0_0_1_n_n.rhsNonContracting by decide)]
  rfl
theorem mmC_apply (l : FVec Ideal S512x8192 .f32) (r : FVec Ideal S8192x64 .f32) (p : Fin 512) (c : Fin 64) :
    matmul dot_S512x8192_S8192x64_S512x64_1_0_0_1_n_n none l r (constant S512x64 .f32 0x00000000#32) (ix2 p c) = ∑ k : Fin 8192, l (ix2 p k) * r (ix2 k c) := by
  simp only [matmul]
  rw [Ideal.matmul_constant_zero_apply, ← Equiv.sum_comp (contrEquiv1 dot_S512x8192_S8192x64_S512x64_1_0_0_1_n_n 8192 rfl rfl).symm]
  refine Finset.sum_congr rfl fun k _ => ?_
  have hk := contrEquiv1_symm_val dot_S512x8192_S8192x64_S512x64_1_0_0_1_n_n 8192 rfl rfl k
  have el : dot_S512x8192_S8192x64_S512x64_1_0_0_1_n_n.lhsIdx (ix2 p c) ((contrEquiv1 dot_S512x8192_S8192x64_S512x64_1_0_0_1_n_n 8192 rfl rfl).symm k) = ix2 p k := funext fun a => Fin.ext (by
    match a with
    | ⟨0, _⟩ => exact mmC_lhs_0 _ _
    | ⟨1, _⟩ => exact (mmC_lhs_1 _ _).trans hk)
  have er : dot_S512x8192_S8192x64_S512x64_1_0_0_1_n_n.rhsIdx (ix2 p c) ((contrEquiv1 dot_S512x8192_S8192x64_S512x64_1_0_0_1_n_n 8192 rfl rfl).symm k) = ix2 k c := funext fun a => Fin.ext (by
    match a with
    | ⟨0, _⟩ => exact (mmC_rhs_0 _ _).trans hk
    | ⟨1, _⟩ => exact mmC_rhs_1 _ _)
  rw [el, er]

/-! ## The one-hot -/

/-- A one-bit comparison widened to 32 bits and read as a signed integer: one if the words are equal, else zero. -/
theorem eq_word_toInt (a b : BitVec 32) :
    (((BitVec.ofBool (a == b)).setWidth 32).toInt : ℝ) = if a = b then 1 else 0 := by
  by_cases h : a = b
  · subst h
    rw [if_pos rfl, show (a == a) = true from by simp,
      show ((BitVec.ofBool true).setWidth 32).toInt = 1 from by decide]
    exact Int.cast_one
  · rw [if_neg h, show (a == b) = false from by simpa using h,
      show ((BitVec.ofBool false).setWidth 32).toInt = 0 from by decide]
    exact Int.cast_zero

/-- THE ONE-HOT at graph `g` and lane `r`: one when lane `r`'s id read as a signed integer is `g`, else zero. -/
theorem onehot_apply (bt : IVec S1x8192 32) (g : Fin 512) (r : Fin 8192) :
    k0_pay6 (F := Ideal) bt (ix2 g r) = if (bt (ix2 (0 : Fin 1) r)).toInt = (g.val : Int) then (1 : EReal) else 0 := by
  unfold k0_pay6
  rw [sitofp_apply, extui_apply]
  show (((((cmpi .eq (iota .tc S512x8192 32 [0] iota_S512x8192_d0_w32)
    (broadcastTo S512x8192 (shapeCast S1x8192 bt shapeCasts_S1x8192_S1x8192) broadcasts_S1x8192_S512x8192)) (ix2 g r)).setWidth 32).toInt : ℝ) : EReal) = _
  rw [show (cmpi .eq (iota .tc S512x8192 32 [0] iota_S512x8192_d0_w32)
      (broadcastTo S512x8192 (shapeCast S1x8192 bt shapeCasts_S1x8192_S1x8192) broadcasts_S1x8192_S512x8192)) (ix2 g r)
      = BitVec.ofBool (BitVec.ofNat 32 g.val == bt (ix2 (0 : Fin 1) r)) from by
    show IntOp.cmpi .eq _ _ = _
    rw [iota_single_apply, broadcastTo_1b_ab_apply, shapeCast_self]
    rfl]
  rw [eq_word_toInt]
  have hg : g.val < 2 ^ 31 := by have := g.isLt; omega
  by_cases h : (bt (ix2 (0 : Fin 1) r)).toInt = (g.val : Int)
  · rw [if_pos h, if_pos ((eq_ofNat_iff_toInt_eq _ _ hg).mpr h).symm]; norm_num
  · rw [if_neg h, if_neg (fun e => h ((eq_ofNat_iff_toInt_eq _ _ hg).mp e.symm))]; norm_num

/-! ## The two updates -/

/-- THE SUMS UPDATE at graph `g`, feature `k`: the old entry plus the hidden feature `k` of every node of the block whose
    id is `g`. -/
theorem sums_update_apply (zt : FVec Ideal S4x8192 .f32) (W1 : FVec Ideal S4x64 .f32) (b1r : FVec Ideal S1x64 .f32)
    (W2 : FVec Ideal S64x64 .f32) (b2r : FVec Ideal S1x64 .f32) (bt : IVec S1x8192 32) (acc : FVec Ideal S512x64 .f32)
    (g : Fin 512) (k : Fin 64) :
    k0_pay7 (F := Ideal) zt W1 b1r W2 b2r bt acc (ix2 g k)
      = acc (ix2 g k) + ∑ r : Fin 8192, if (bt (ix2 (0 : Fin 1) r)).toInt = (g.val : Int)
          then hidRow (fun a => zt (ix2 a r)) W1 (fun j => b1r (ix2 (0 : Fin 1) j)) W2 (fun j => b2r (ix2 (0 : Fin 1) j)) k else 0 := by
  unfold k0_pay7
  simp only [shapeCast_self]
  rw [addf_apply, mmC_apply]
  congr 1
  refine Finset.sum_congr rfl fun r _ => ?_
  rw [onehot_apply, ite_one_zero_mul]
  refine if_congr Iff.rfl ?_ rfl
  rw [addf_apply, mmB_apply, broadcastTo_1b_ab_apply]
  unfold hidRow
  congr 1
  refine Finset.sum_congr rfl fun j _ => ?_
  rw [maximumf_apply, addf_apply, mmA_apply, broadcastTo_1b_ab_apply, broadcast_apply]
  show max _ (Ideal.ofBits .f32 0x00000000#32) * _ = _
  rw [Ideal.ofBits_zero_f32]

/-- A vector of 512 entries viewed as a column reads its entry `g` at `(g, 0)`. -/
theorem column_apply {α : Type} (v : S512.Idx → α) (g : Fin 512) :
    shapeCast S512x1 v shapeCasts_S512_S512x1 (ix2 g (0 : Fin 1)) = v (ix1 g) :=
  shapeCast_apply v shapeCasts_S512_S512x1 _ _ (by
    rw [Shape.rowMajor_val_one, Shape.rowMajor_val_two]
    show g.val = g.val * 1 + 0
    omega)

/-- The one-hot's row sum at graph `g`: the sum over the lanes of row `g`. -/
theorem rowsum_apply (src : FVec Ideal S512x8192 .f32) (hφ : FKind.Formats .f32)
    (hacc : (0x00000000#32 : BitVec 32) = 0x00000000#32) (g : Fin 512) :
    multiReduction .add [1] S512 src 0x00000000#32 reduces_S512x8192_S512 hφ hacc (ix1 g) = ∑ r : Fin 8192, src (ix2 g r) := by
  refine (Ideal.multiReduction_add_single src 0x00000000#32 reduces_S512x8192_S512 hφ hacc (ix1 g)).trans ?_
  refine Finset.sum_congr rfl fun r _ => congrArg src (funext fun a => Fin.ext ?_)
  match a with
  | ⟨0, _⟩ => rfl
  | ⟨1, _⟩ => rfl

/-- THE COUNTS UPDATE at graph `g`: the old entry plus the number of the block's nodes whose id is `g`. -/
theorem counts_update_apply (bt : IVec S1x8192 32) (acc : FVec Ideal S512x1 .f32) (g : Fin 512) :
    k0_pay1 (F := Ideal) (k0_pay6 (F := Ideal) bt) acc (ix2 g (0 : Fin 1))
      = acc (ix2 g (0 : Fin 1)) + ∑ r : Fin 8192, if (bt (ix2 (0 : Fin 1) r)).toInt = (g.val : Int) then (1 : EReal) else 0 := by
  unfold k0_pay1
  simp only [shapeCast_self]
  rw [addf_apply, column_apply]
  exact congrArg (acc (ix2 g (0 : Fin 1)) + ·)
    ((rowsum_apply _ _ _ g).trans (Finset.sum_congr rfl fun r _ => onehot_apply bt g r))

/-- The two accumulators' reset values are zero everywhere. -/
theorem sums_zero_apply (i : S512x64.Idx) : k0_pay4 (F := Ideal) i = 0 := by
  unfold k0_pay4
  simp only [shapeCast_self]
  exact Ideal.ofBits_zero_f32

theorem counts_zero_apply (i : S512x1.Idx) : k0_pay5 (F := Ideal) i = 0 := by
  unfold k0_pay5
  simp only [shapeCast_self]
  exact Ideal.ofBits_zero_f32

/-- An output's block is its accumulator under a leading unit axis. -/
theorem out_sums_apply (v : FVec Ideal S512x64 .f32) (u : Fin 1) (g : Fin 512) (k : Fin 64) :
    k0_pay2 (F := Ideal) v (ix3 u g k) = v (ix2 g k) := by
  unfold k0_pay2
  exact shapeCast_ab_1ab_apply v shapeCasts_S512x64_S1x512x64 u g k

theorem out_counts_apply (v : FVec Ideal S512x1 .f32) (u : Fin 1) (g : Fin 512) (z : Fin 1) :
    k0_pay3 (F := Ideal) v (ix3 u g z) = v (ix2 g z) := by
  unfold k0_pay3
  exact shapeCast_ab_1ab_apply v shapeCasts_S512x1_S1x512x1 u g z

end Cert.KernelIdeal.Block

end
-- ==== Proof.KSum.lean ====
/-
  The two accumulators in closed form, at the ideal instance.

  After point `n` an accumulator holds zero plus the contributions of the points `16 (n / 16) … n`: at step 0 it is
  reset and the point's block added, at every later step the point's block is added to what was there. A block's
  contribution at graph `g` is the sum over its 8192 nodes whose id is `g` of the node's hidden feature (sums) or of
  one (counts).
-/
import proofs.«417854_j8297876816596_3_alg».proof.Proof.KFold
import proofs.«417854_j8297876816596_3_alg».proof.Proof.KBlock

noncomputable section

open scoped BigOperators
open Idealize.ShloMosaic Idealize.ShloMosaic.TcCoe Idealize.SL.Sem

namespace Cert.KernelIdeal.Sum

open Cert.KernelIdeal Cert.KernelIdeal.Gen Cert.KernelIdeal.Fold Cert.KernelIdeal.Block
open Idealize.ShloMosaic.ValueIdx Cert.GinPool

variable (m : (ℓ : Loc nD τ sig) → Buf (Elt Ideal) ℓ)

/-- Point `n`'s contribution to the summed feature `k` of graph `g` (zero past the grid). -/
def contribS (c : Dev nD) (n : ℕ) (g : Fin 512) (k : Fin 64) : EReal :=
  if h : n < cfg0.N then
    ∑ r : Fin 8192, if ((idB m c ⟨n, h⟩ : IVec S1x8192 32) (ix2 (0 : Fin 1) r)).toInt = (g.val : Int)
      then hidRow (fun a => (ztB m c ⟨n, h⟩ : FVec Ideal S4x8192 .f32) (ix2 a r)) (w1B m c ⟨n, h⟩ : FVec Ideal S4x64 .f32)
        (fun j => (b1B m c ⟨n, h⟩ : FVec Ideal S1x64 .f32) (ix2 (0 : Fin 1) j)) (w2B m c ⟨n, h⟩ : FVec Ideal S64x64 .f32)
        (fun j => (b2B m c ⟨n, h⟩ : FVec Ideal S1x64 .f32) (ix2 (0 : Fin 1) j)) k
      else 0
  else 0

/-- Point `n`'s contribution to the node count of graph `g` (zero past the grid). -/
def contribC (c : Dev nD) (n : ℕ) (g : Fin 512) : EReal :=
  if h : n < cfg0.N then
    ∑ r : Fin 8192, if ((idB m c ⟨n, h⟩ : IVec S1x8192 32) (ix2 (0 : Fin 1) r)).toInt = (g.val : Int) then (1 : EReal) else 0
  else 0

/-- A point's update of the sums accumulator adds its contribution. -/
theorem stepS_apply (c : Dev nD) (t : Fin cfg0.N) (acc : FVec Ideal S512x64 .f32) (g : Fin 512) (k : Fin 64) :
    stepS m c t acc (ix2 g k) = acc (ix2 g k) + contribS m c t.val g k := by
  unfold stepS contribS
  rw [dif_pos t.isLt]
  exact sums_update_apply (ztB m c t) (w1B m c t) (b1B m c t) (w2B m c t) (b2B m c t) (idB m c t) acc g k

/-- A point's update of the counts accumulator adds its contribution. -/
theorem stepC_apply (c : Dev nD) (t : Fin cfg0.N) (acc : FVec Ideal S512x1 .f32) (g : Fin 512) :
    stepC m c t acc (ix2 g (0 : Fin 1)) = acc (ix2 g (0 : Fin 1)) + contribC m c t.val g := by
  unfold stepC contribC
  rw [dif_pos t.isLt]
  exact counts_update_apply (idB m c t) acc g

/-- THE SUMS ACCUMULATOR after point `n`: zero plus the contributions of the points of `n`'s core up to `n`. -/
theorem accS_apply (c : Dev nD) : ∀ (n : ℕ) (h : n < cfg0.N) (g : Fin 512) (k : Fin 64),
    accS m c n h (ix2 g k) = 0 + ∑ s ∈ Finset.range (n % 16 + 1), contribS m c (16 * (n / 16) + s) g k
  | 0, h, g, k => by
    rw [accS_reset m c 0 h rfl, stepS_apply, sums_zero_apply]
    show _ = 0 + ∑ s ∈ Finset.range 1, contribS m c (16 * 0 + s) g k
    rw [Finset.sum_range_one]
  | n + 1, h, g, k => by
    have hN : n + 1 < 32 := lt_of_lt_of_eq h (show cfg0.N = 32 from N_0)
    by_cases h0 : (n + 1) % 16 = 0
    · rw [accS_reset m c (n + 1) h h0, stepS_apply, sums_zero_apply]
      have e1 : (n + 1) % 16 + 1 = 1 := by omega
      have e2 : 16 * ((n + 1) / 16) + 0 = n + 1 := by omega
      rw [e1, Finset.sum_range_one, e2]
    · rw [accS_step m c n h h0, stepS_apply, accS_apply c n (Nat.lt_of_succ_lt h) g k]
      have e1 : (n + 1) % 16 + 1 = (n % 16 + 1) + 1 := by omega
      have e2 : (n + 1) / 16 = n / 16 := by omega
      have e3 : 16 * (n / 16) + (n % 16 + 1) = n + 1 := by omega
      rw [e1, e2, Finset.sum_range_succ (fun s => contribS m c (16 * (n / 16) + s) g k) (n % 16 + 1), e3, add_assoc]

/-- THE COUNTS ACCUMULATOR after point `n`, likewise. -/
theorem accC_apply (c : Dev nD) : ∀ (n : ℕ) (h : n < cfg0.N) (g : Fin 512),
    accC m c n h (ix2 g (0 : Fin 1)) = 0 + ∑ s ∈ Finset.range (n % 16 + 1), contribC m c (16 * (n / 16) + s) g
  | 0, h, g => by
    rw [accC_reset m c 0 h rfl, stepC_apply, counts_zero_apply]
    show _ = 0 + ∑ s ∈ Finset.range 1, contribC m c (16 * 0 + s) g
    rw [Finset.sum_range_one]
  | n + 1, h, g => by
    have hN : n + 1 < 32 := lt_of_lt_of_eq h (show cfg0.N = 32 from N_0)
    by_cases h0 : (n + 1) % 16 = 0
    · rw [accC_reset m c (n + 1) h h0, stepC_apply, counts_zero_apply]
      have e1 : (n + 1) % 16 + 1 = 1 := by omega
      have e2 : 16 * ((n + 1) / 16) + 0 = n + 1 := by omega
      rw [e1, Finset.sum_range_one, e2]
    · rw [accC_step m c n h h0, stepC_apply, accC_apply c n (Nat.lt_of_succ_lt h) g]
      have e1 : (n + 1) % 16 + 1 = (n % 16 + 1) + 1 := by omega
      have e2 : (n + 1) / 16 = n / 16 := by omega
      have e3 : 16 * (n / 16) + (n % 16 + 1) = n + 1 := by omega
      rw [e1, e2, Finset.sum_range_succ (fun s => contribC m c (16 * (n / 16) + s) g) (n % 16 + 1), e3, add_assoc]

end Cert.KernelIdeal.Sum

end
-- ==== Proof.Spec.lean ====
/-
  The arithmetic that joins a mean-pool written as a one-hot product, accumulated block by block on two cores,
  to the same pool written as a segment sum.

  262144 nodes are cut into 32 consecutive blocks of 8192; core `q` of two takes blocks `16 q … 16 q + 15`. A core
  starts from zero and adds, block after block, that block's contribution; the host then adds the two cores'
  totals to zero. Addition of extended reals is commutative and associative, so the result is zero plus the sum over
  all nodes, in any grouping: no finiteness is used.
-/
import Mathlib.Data.EReal.Operations
import Mathlib.Algebra.BigOperators.Fin
import proofs.«417854_j8297876816596_3_alg».proof.Proof.LibBlockSum

noncomputable section

open scoped BigOperators

namespace Cert.GinPool

open Cert.LibBlockSum

/-- Lane `r` of step `s` of core `q`, as a node number: `8192 (16 q + s) + r`. -/
def nodeIdx (q : Fin 2) (s : Fin 16) (r : Fin 8192) : Fin 262144 :=
  blockIdx (B := 32) (R := 8192) (N := 262144) (by norm_num)
    (blockIdx (B := 2) (R := 16) (N := 32) (by norm_num) q s) r

theorem nodeIdx_val (q : Fin 2) (s : Fin 16) (r : Fin 8192) :
    (nodeIdx q s r).val = 8192 * (16 * q.val + s.val) + r.val := rfl

/-- A sum over the nodes, taken core by core, step by step, lane by lane. -/
theorem sum_nodes {M : Type*} [AddCommMonoid M] (f : Fin 262144 → M) :
    ∑ n, f n = ∑ q : Fin 2, ∑ s : Fin 16, ∑ r : Fin 8192, f (nodeIdx q s r) := by
  rw [sum_blocks (B := 32) (R := 8192) (by norm_num) f,
    sum_blocks (B := 2) (R := 16) (N := 32) (by norm_num)]
  rfl

/-- THE TWO GROUPINGS AGREE. If block `16 q + s` contributes `G (16 q + s)`, the sum over its 8192 lanes of `f`, then
    zero plus the two cores' totals — each zero plus its sixteen blocks' contributions — is zero plus the sum of `f`
    over all nodes. -/
theorem sum_partials (f : Fin 262144 → EReal) (G : ℕ → EReal)
    (hG : ∀ (q : Fin 2) (s : Fin 16), G (16 * q.val + s.val) = ∑ r : Fin 8192, f (nodeIdx q s r)) :
    (0 : EReal) + ∑ q : Fin 2, ((0 : EReal) + ∑ s ∈ Finset.range 16, G (16 * q.val + s)) = (0 : EReal) + ∑ n, f n := by
  rw [sum_nodes]
  congr 1
  refine Finset.sum_congr rfl fun q _ => ?_
  rw [zero_add, Finset.sum_range]
  exact Finset.sum_congr rfl fun s _ => hG q s

end Cert.GinPool

end
-- ==== Proof.KResult.lean ====
/-
  The kernel program's result, read index by index at the ideal instance.

  A block's contribution is a sum over its lanes of a function of the node number `8192 t + r`; a core's slab of an
  output array is zero plus its sixteen blocks' contributions; the host adds the two slabs to zero. Re-grouped, the
  summed features of graph `g` are zero plus the sum over ALL nodes with id `g` of their hidden features, and the count
  zero plus the number of such nodes: the read-out of these is the result.
-/
import proofs.«417854_j8297876816596_3_alg».proof.Proof.KValue
import proofs.«417854_j8297876816596_3_alg».proof.Proof.KSum
import proofs.«417854_j8297876816596_3_alg».proof.Proof.Spec
import Idealize.ShloMosaic.PureOps.Ideal.Laws

noncomputable section

open scoped BigOperators
open Idealize.ShloMosaic Idealize.ShloMosaic.TcCoe Idealize.SL.Sem

namespace Cert.KernelIdeal.Result

open Cert.KernelIdeal Cert.KernelIdeal.Gen Cert.KernelIdeal.Fold Cert.KernelIdeal.Block Cert.KernelIdeal.Sum Cert.KernelIdeal.Value
open Idealize.ShloMosaic.ValueIdx Cert.GinPool

variable (m : (ℓ : Loc nD τ sig) → Buf (Elt Ideal) ℓ)

/-- Node `n`'s share of the summed feature `k` of graph `g`: its hidden feature if its id is `g`, else zero. -/
def shareS (c : Dev nD) (g : Fin 512) (k : Fin 64) (n : Fin 262144) : EReal :=
  if ((m ((c : Thread nD τ).loc main_arg2) : IVec S262144 32) (ix1 n)).toInt = (g.val : Int)
    then hidRow (fun a => (zK (F := Ideal) (m ((c : Thread nD τ).loc main_arg0)) (m ((c : Thread nD τ).loc main_arg1)) : FVec Ideal S262144x4 .f32) (ix2 n a))
      (m ((c : Thread nD τ).loc main_arg3) : FVec Ideal S4x64 .f32)
      (fun j => (m ((c : Thread nD τ).loc main_arg4) : FVec Ideal S64 .f32) (ix1 j))
      (m ((c : Thread nD τ).loc main_arg5) : FVec Ideal S64x64 .f32)
      (fun j => (m ((c : Thread nD τ).loc main_arg6) : FVec Ideal S64 .f32) (ix1 j)) k
    else 0

/-- Node `n`'s share of the count of graph `g`: one if its id is `g`, else zero. -/
def shareC (c : Dev nD) (g : Fin 512) (n : Fin 262144) : EReal :=
  if ((m ((c : Thread nD τ).loc main_arg2) : IVec S262144 32) (ix1 n)).toInt = (g.val : Int) then (1 : EReal) else 0

theorem pt_lt (q : Fin 2) (s : Fin 16) : 16 * q.val + s.val < cfg0.N := by
  rw [show cfg0.N = 32 from N_0]; have := q.isLt; have := s.isLt; omega

/-- Block `16 q + s`'s contribution to the sums is the sum of its lanes' shares. -/
theorem contribS_eq (c : Dev nD) (q : Fin 2) (s : Fin 16) (g : Fin 512) (k : Fin 64) :
    contribS m c (16 * q.val + s.val) g k = ∑ r : Fin 8192, shareS m c g k (nodeIdx q s r) := by
  unfold contribS
  rw [dif_pos (pt_lt q s)]
  refine Finset.sum_congr rfl fun r _ => ?_
  have hn : (nodeIdx q s r).val = 8192 * (⟨16 * q.val + s.val, pt_lt q s⟩ : Fin cfg0.N).val + r.val := nodeIdx_val q s r
  have hw1 : (w1B m c ⟨16 * q.val + s.val, pt_lt q s⟩ : FVec Ideal S4x64 .f32) = m ((c : Thread nD τ).loc main_arg3) :=
    funext fun i => by
      obtain ⟨a, j, rfl⟩ : ∃ (a : Fin 4) (j : Fin 64), i = ix2 a j := ⟨i 0, i 1, eq_ix2 i⟩
      exact w1B_apply m c _ a j
  have hw2 : (w2B m c ⟨16 * q.val + s.val, pt_lt q s⟩ : FVec Ideal S64x64 .f32) = m ((c : Thread nD τ).loc main_arg5) :=
    funext fun i => by
      obtain ⟨a, j, rfl⟩ : ∃ (a : Fin 64) (j : Fin 64), i = ix2 a j := ⟨i 0, i 1, eq_ix2 i⟩
      exact w2B_apply m c _ a j
  unfold shareS
  rw [idB_apply m c _ r (nodeIdx q s r) hn, hw1, hw2]
  refine if_congr Iff.rfl ?_ rfl
  congr 1
  · exact funext fun a => ztB_apply m c _ a r (nodeIdx q s r) hn
  · exact funext fun j => b1B_apply m c _ j
  · exact funext fun j => b2B_apply m c _ j

/-- Block `16 q + s`'s contribution to the counts is the sum of its lanes' shares. -/
theorem contribC_eq (c : Dev nD) (q : Fin 2) (s : Fin 16) (g : Fin 512) :
    contribC m c (16 * q.val + s.val) g = ∑ r : Fin 8192, shareC m c g (nodeIdx q s r) := by
  unfold contribC
  rw [dif_pos (pt_lt q s)]
  refine Finset.sum_congr rfl fun r _ => ?_
  have hn : (nodeIdx q s r).val = 8192 * (⟨16 * q.val + s.val, pt_lt q s⟩ : Fin cfg0.N).val + r.val := nodeIdx_val q s r
  unfold shareC
  rw [idB_apply m c _ r (nodeIdx q s r) hn]

/-- Core `q`'s slab of the sums output: zero plus its sixteen blocks' contributions. -/
theorem partS_apply (c : Dev nD) (q : Fin 2) (g : Fin 512) (k : Fin 64) :
    partS m c (ix3 q g k) = 0 + ∑ s ∈ Finset.range 16, contribS m c (16 * q.val + s) g k := by
  have hq := q.isLt
  unfold partS
  show accS m c (16 * q.val + 15) _ (ix2 g k) = _
  rw [accS_apply]
  have e1 : (16 * q.val + 15) % 16 + 1 = 16 := by omega
  have e2 : (16 * q.val + 15) / 16 = q.val := by omega
  rw [e1, e2]

/-- Core `q`'s slab of the counts output, likewise. -/
theorem partC_apply (c : Dev nD) (q : Fin 2) (g : Fin 512) :
    partC m c (ix3 q g (0 : Fin 1)) = 0 + ∑ s ∈ Finset.range 16, contribC m c (16 * q.val + s) g := by
  have hq := q.isLt
  unfold partC
  show accC m c (16 * q.val + 15) _ (ix2 g (0 : Fin 1)) = _
  rw [accC_apply]
  have e1 : (16 * q.val + 15) % 16 + 1 = 16 := by omega
  have e2 : (16 * q.val + 15) / 16 = q.val := by omega
  rw [e1, e2]

/-! ## The tail's operations at an index -/

/-- The host's sum over the two cores of a [2, 512, w] array, started from zero. -/
theorem coresum_S (P : FVec Ideal S2x512x64 .f32) (g : Fin 512) (k : Fin 64) :
    Host.reduceAdd (F := Ideal) P (constant (F := Ideal) S_ .f32 0x00000000#32) reducesTo_S2x512x64_S512x64_d0 h_S_ (ix2 g k)
      = 0 + ∑ q : Fin 2, P (ix3 q g k) := by
  show Ideal.hostReduceAdd reducesTo_S2x512x64_S512x64_d0 P (Ideal.ofBits .f32 0x00000000#32) (ix2 g k) = _
  rw [Ideal.hostReduceAdd_single reducesTo_S2x512x64_S512x64_d0 (by decide : S2x512x64.Reduces [0] S512x64), Ideal.ofBits_zero_f32]
  refine congrArg (fun s => (0 : EReal) + s) (Finset.sum_congr rfl fun q _ => congrArg P (funext fun a => Fin.ext ?_))
  match a with
  | ⟨0, _⟩ => rfl
  | ⟨1, _⟩ => rfl
  | ⟨2, _⟩ => rfl

theorem coresum_C (Q : FVec Ideal S2x512x1 .f32) (g : Fin 512) :
    Host.reduceAdd (F := Ideal) Q (constant (F := Ideal) S_ .f32 0x00000000#32) reducesTo_S2x512x1_S512x1_d0 h_S_ (ix2 g (0 : Fin 1))
      = 0 + ∑ q : Fin 2, Q (ix3 q g (0 : Fin 1)) := by
  show Ideal.hostReduceAdd reducesTo_S2x512x1_S512x1_d0 Q (Ideal.ofBits .f32 0x00000000#32) (ix2 g (0 : Fin 1)) = _
  rw [Ideal.hostReduceAdd_single reducesTo_S2x512x1_S512x1_d0 (by decide : S2x512x1.Reduces [0] S512x1), Ideal.ofBits_zero_f32]
  refine congrArg (fun s => (0 : EReal) + s) (Finset.sum_congr rfl fun q _ => congrArg Q (funext fun a => Fin.ext ?_))
  match a with
  | ⟨0, _⟩ => rfl
  | ⟨1, _⟩ => rfl
  | ⟨2, _⟩ => rfl

/-- A column broadcast along the features reads its entry of the same graph. -/
theorem bcast_col (x : FVec Ideal S512x1 .f32) (g : Fin 512) (k : Fin 64) :
    broadcastInDim S512x64 ![0, 1] bcast_S512x1_S512x64_0_1 x (ix2 g k) = x (ix2 g (0 : Fin 1)) :=
  broadcastInDim_apply _ _ x _ _ (fun a => by match a with | ⟨0, _⟩ => rfl | ⟨1, _⟩ => rfl)

/-- The splat of the word of `1.0`. -/
theorem bcast_one (i : S512x1.Idx) :
    broadcastInDim S512x1 ![] bcast_S_S512x1 (constant (F := Ideal) S_ .f32 0x3F800000#32) i = Ideal.ofBits .f32 0x3F800000#32 :=
  broadcastInDim_apply _ _ _ i ix0 (fun a => a.elim0)

/-- The bias as a row, broadcast over the graphs, reads its entry of the same output. -/
theorem bcast_bias (x : FVec Ideal S128 .f32) (g : Fin 512) (o : Fin 128) :
    broadcastInDim S512x128 ![0, 1] bcast_S1x128_S512x128_0_1 (broadcastInDim S1x128 ![1] bcast_S128_S1x128_1 x) (ix2 g o) = x (ix1 o) :=
  (broadcastInDim_apply _ _ _ _ (ix2 (0 : Fin 1) o) (fun a => by match a with | ⟨0, _⟩ => rfl | ⟨1, _⟩ => rfl)).trans
    (broadcastInDim_apply _ _ x _ (ix1 o) (fun a => by match a with | ⟨0, _⟩ => rfl))

/-- The projection, rows times columns. -/
theorem proj_lhs_0 (i : S512x128.Idx) (q : dot_S512x64_S64x128_S512x128_1_0_0_1_n_n.contr.Idx) :
    (dot_S512x64_S64x128_S512x128_1_0_0_1_n_n.lhsIdx i q 0).val = (i 0).val := by
  unfold DotDims.lhsIdx
  rw [dif_neg (show ¬(0 : Fin S512x64.rank) ∈ dot_S512x64_S64x128_S512x128_1_0_0_1_n_n.lhsBatch by decide), dif_pos (show (0 : Fin S512x64.rank) ∈ dot_S512x64_S64x128_S512x128_1_0_0_1_n_n.lhsNonContracting by decide)]
  rfl
theorem proj_lhs_1 (i : S512x128.Idx) (q : dot_S512x64_S64x128_S512x128_1_0_0_1_n_n.contr.Idx) :
    (dot_S512x64_S64x128_S512x128_1_0_0_1_n_n.lhsIdx i q 1).val = (q ⟨0, by decide⟩).val :=
  dot_S512x64_S64x128_S512x128_1_0_0_1_n_n.lhsIdx_val_of_single rfl i q
theorem proj_rhs_0 (i : S512x128.Idx) (q : dot_S512x64_S64x128_S512x128_1_0_0_1_n_n.contr.Idx) :
    (dot_S512x64_S64x128_S512x128_1_0_0_1_n_n.rhsIdx i q 0).val = (q ⟨0, by decide⟩).val :=
  dot_S512x64_S64x128_S512x128_1_0_0_1_n_n.rhsIdx_val_of_single rfl i q
theorem proj_rhs_1 (i : S512x128.Idx) (q : dot_S512x64_S64x128_S512x128_1_0_0_1_n_n.contr.Idx) :
    (dot_S512x64_S64x128_S512x128_1_0_0_1_n_n.rhsIdx i q 1).val = (i 1).val := by
  unfold DotDims.rhsIdx
  rw [dif_neg (show ¬(1 : Fin S64x128.rank) ∈ dot_S512x64_S64x128_S512x128_1_0_0_1_n_n.rhsBatch by decide), dif_pos (show (1 : Fin S64x128.rank) ∈ dot_S512x64_S64x128_S512x128_1_0_0_1_n_n.rhsNonContracting by decide)]
  rfl
theorem proj_apply (l : FVec Ideal S512x64 .f32) (r : FVec Ideal S64x128 .f32) (g : Fin 512) (o : Fin 128) :
    Host.dotGeneral (F := Ideal) dot_S512x64_S64x128_S512x128_1_0_0_1_n_n none l r (ix2 g o) = ∑ k : Fin 64, l (ix2 g k) * r (ix2 k o) := by
  simp only [Host.dotGeneral]
  rw [Ideal.dotGeneral_apply, ← Equiv.sum_comp (contrEquiv1 dot_S512x64_S64x128_S512x128_1_0_0_1_n_n 64 rfl rfl).symm]
  refine Finset.sum_congr rfl fun k _ => ?_
  have hk := contrEquiv1_symm_val dot_S512x64_S64x128_S512x128_1_0_0_1_n_n 64 rfl rfl k
  have el : dot_S512x64_S64x128_S512x128_1_0_0_1_n_n.lhsIdx (ix2 g o) ((contrEquiv1 dot_S512x64_S64x128_S512x128_1_0_0_1_n_n 64 rfl rfl).symm k) = ix2 g k := funext fun a => Fin.ext (by
    match a with
    | ⟨0, _⟩ => exact proj_lhs_0 _ _
    | ⟨1, _⟩ => exact (proj_lhs_1 _ _).trans hk)
  have er : dot_S512x64_S64x128_S512x128_1_0_0_1_n_n.rhsIdx (ix2 g o) ((contrEquiv1 dot_S512x64_S64x128_S512x128_1_0_0_1_n_n 64 rfl rfl).symm k) = ix2 k o := funext fun a => Fin.ext (by
    match a with
    | ⟨0, _⟩ => exact (proj_rhs_0 _ _).trans hk
    | ⟨1, _⟩ => exact proj_rhs_1 _ _)
  rw [el, er]

/-! ## The result -/

/-- THE KERNEL PROGRAM'S RESULT at graph `g`, output `o`: the read-out of zero plus every node's share. -/
theorem result_apply (c : Dev nD) (g : Fin 512) (o : Fin 128) :
    tailK (F := Ideal) (partS m c) (partC m c) (m ((c : Thread nD τ).loc main_arg7)) (m ((c : Thread nD τ).loc main_arg8)) (ix2 g o)
      = readOut (fun g k => 0 + ∑ n : Fin 262144, shareS m c g k n) (fun g => 0 + ∑ n : Fin 262144, shareC m c g n)
          (m ((c : Thread nD τ).loc main_arg7) : FVec Ideal S64x128 .f32)
          (fun o => (m ((c : Thread nD τ).loc main_arg8) : FVec Ideal S128 .f32) (ix1 o)) g o := by
  unfold tailK readOut
  rw [addf_apply, proj_apply, bcast_bias]
  refine congrArg (fun s => s + (m ((c : Thread nD τ).loc main_arg8) : FVec Ideal S128 .f32) (ix1 o)) (Finset.sum_congr rfl fun k _ => ?_)
  show Ideal.div _ _ * _ = _
  rw [coresum_S, bcast_col, maximumf_apply, coresum_C, bcast_one]
  have hS : (0 : EReal) + ∑ q : Fin 2, partS m c (ix3 q g k) = 0 + ∑ n : Fin 262144, shareS m c g k n := by
    rw [Finset.sum_congr rfl fun q _ => partS_apply m c q g k]
    exact sum_partials (shareS m c g k) (fun n => contribS m c n g k) (fun q s => contribS_eq m c q s g k)
  have hC : (0 : EReal) + ∑ q : Fin 2, partC m c (ix3 q g (0 : Fin 1)) = 0 + ∑ n : Fin 262144, shareC m c g n := by
    rw [Finset.sum_congr rfl fun q _ => partC_apply m c q g]
    exact sum_partials (shareC m c g) (fun n => contribC m c n g) (fun q s => contribC_eq m c q s g)
  rw [hS, hC]

end Cert.KernelIdeal.Result

end
-- ==== Proof.LibIndex.lean ====
/-
  Three host operations read at an index, and two facts of extended-real arithmetic.

  A gather of whole rows of a matrix (one start index per result row), a scatter that adds whole rows of an update
  matrix into the rows of an operand, and its rank-1 form that adds scalars into a vector: each is read at one
  element. The scatters are read at the ideal instance, where a float is an extended real and the accumulation is
  the exact sum over the updates that land on the element.
-/
import Idealize.ShloMosaic.PureOps.Ideal
import Idealize.ShloMosaic.Lib.ValueIdx
import Mathlib.Data.EReal.Operations
import Mathlib.Algebra.BigOperators.Group.Finset.Basic
import Mathlib.Algebra.BigOperators.Group.Finset.Piecewise

noncomputable section

open scoped BigOperators

namespace Cert.LibIndex

open Idealize.ShloMosaic Idealize.ShloMosaic.ValueIdx

/-! ## A gather of rows -/

section RowGather
variable {α : Type}

/-- The dimension numbers of a gather of whole rows: operand `[N, C]`, start indices `[R, 1]` (one row number
    per result row), result `[R, C]`; axis 0 of the operand is collapsed and indexed, axis 1 is the offset axis,
    the slice is one whole row. The conditions `wf` are decided on a program's literal shapes. -/
abbrev rowGatherDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(k, c)`: column `c` of the operand's row whose number is the start index
    `idx[k, 0]`, read signed and clamped into `[0, N − 1]`. -/
theorem gather_row_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (k : Fin R) (c : Fin C) :
    Host.gather (rowGatherDims N C R wf) x idx (ix2 k c)
      = x (ix2 ⟨min (idx (ix2 k (0 : Fin 1))).toInt.toNat (N - 1), by omega⟩ c) := by
  -- the start on axis 0: the clamped start index; on axis 1 (not in the start index map): zero
  have hst0 : (rowGatherDims N C R wf).start (ix2 k c) idx (0 : Fin 2)
      = min (idx (ix2 k (0 : Fin 1))).toInt.toNat (N - 1) := by
    unfold GatherDims.start
    rw [dif_pos (show (0 : Fin 2) ∈ (rowGatherDims N C R wf).startIndexMap from List.mem_singleton.mpr rfl)]
    have hsi : (rowGatherDims N C R wf).siIdx (ix2 k c) ⟨List.idxOf (0 : Fin 2) (rowGatherDims N C R wf).startIndexMap,
        List.idxOf_lt_length_iff.2 (List.mem_singleton.mpr rfl)⟩ = ix2 k (0 : Fin 1) := by
      funext b; refine Fin.ext ?_
      match b with
      | ⟨0, _⟩ => rfl
      | ⟨1, _⟩ => rfl
    rw [hsi]
    rfl
  have hst1 : (rowGatherDims N C R wf).start (ix2 k c) idx (1 : Fin 2) = 0 := by
    unfold GatherDims.start
    exact dif_neg (show (1 : Fin 2) ∉ ([0] : List (Fin 2)) from by decide)
  -- the offset coordinate: zero on the collapsed axis 0, the result's column on axis 1
  have hoff0 : (rowGatherDims N C R wf).offCoord (ix2 k c) (0 : Fin 2) = 0 :=
    GatherDims.offCoord_eq_zero _ _ _ (fun h => ((GatherDims.mem_sKept _ _).mp h).1 (List.mem_singleton.mpr rfl))
  have hoff1 : (rowGatherDims N C R wf).offCoord (ix2 k c) (1 : Fin 2) = c.val := by
    unfold GatherDims.offCoord
    rw [dif_pos ((GatherDims.mem_sKept (rowGatherDims N C R wf) (1 : Fin 2)).mpr
      ⟨(show (1 : Fin 2) ∉ ([0] : List (Fin 2)) from by decide), List.not_mem_nil⟩)]
    rfl
  unfold Host.gather
  congr 1
  funext a
  refine Fin.ext ?_
  match a with
  | ⟨0, _⟩ =>
    show (rowGatherDims N C R wf).start (ix2 k c) idx (0 : Fin 2) + (rowGatherDims N C R wf).batchCoord (ix2 k c) (0 : Fin 2)
      + (rowGatherDims N C R wf).offCoord (ix2 k c) (0 : Fin 2) = min (idx (ix2 k (0 : Fin 1))).toInt.toNat (N - 1)
    rw [GatherDims.batchCoord_eq_zero _ _ _ List.not_mem_nil, hst0, hoff0]
    rfl
  | ⟨1, _⟩ =>
    show (rowGatherDims N C R wf).start (ix2 k c) idx (1 : Fin 2) + (rowGatherDims N C R wf).batchCoord (ix2 k c) (1 : Fin 2)
      + (rowGatherDims N C R wf).offCoord (ix2 k c) (1 : Fin 2) = c.val
    rw [GatherDims.batchCoord_eq_zero _ _ _ List.not_mem_nil, hst1, hoff1]
    omega

/-- The same for any dimension numbers whose fields are those of a gather of rows (a printed record's are, each by
    `rfl`). -/
theorem gather_row_apply_of {N C R w : Nat} (hN : 0 < N) (d : GatherDims ⟨2, ![N, C]⟩ ⟨2, ![R, 1]⟩ ⟨2, ![R, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![R, 1]⟩ w) (k : Fin R) (c : Fin C) :
    Host.gather d x idx (ix2 k c)
      = x (ix2 ⟨min (idx (ix2 k (0 : Fin 1))).toInt.toNat (N - 1), by omega⟩ c) := by
  obtain ⟨od, cd, ob, sb, sm, iv, ss, wf⟩ := d
  dsimp only at h1 h2 h3 h4 h5 h6 h7
  subst h1 h2 h3 h4 h5 h6 h7
  exact gather_row_apply hN wf x idx k c

end RowGather

/-! ## A scatter that adds rows -/

/-- An axis is among a shape's kept axes exactly when it is not among the removed ones. -/
theorem mem_kept {s : Shape} (axes : List (Fin s.rank)) (a : Fin s.rank) : a ∈ s.kept axes ↔ a ∉ axes := by
  simp [Shape.kept, List.mem_filter, List.mem_finRange]

/-- The dimension numbers of a scatter of whole rows: operand `[N, C]`, scatter indices `[R, 1]` (one row number
    per update row), updates `[R, C]`; axis 0 of the operand is the inserted, indexed axis, axis 1 of the updates
    is the window axis. -/
abbrev rowScatterDims (N C R : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The window of update row `k` starts, on the operand's axis 0, at the scatter index `idx[k, 0]` read signed. -/
theorem rowScatter_start0 {N C R w : Nat}
    (wf : ScatterDims.WF ⟨2, ![N, C]⟩ ⟨2, ![R, 1]⟩ ⟨2, ![R, C]⟩ [1] [0] [0] 1)
    (idx : IVec ⟨2, ![R, 1]⟩ w) (k : Fin R) (c : Fin C) :
    (rowScatterDims N C R wf).start (ix2 k c) idx (0 : Fin 2) = (idx (ix2 k (0 : Fin 1))).toInt := by
  unfold ScatterDims.start
  rw [dif_pos (show (0 : Fin 2) ∈ (rowScatterDims N C R wf).scatterDimsToOperandDims from List.mem_singleton.mpr rfl)]
  have hsi : (rowScatterDims N C R wf).siIdx (ix2 k c) ⟨List.idxOf (0 : Fin 2) (rowScatterDims N C R wf).scatterDimsToOperandDims,
      List.idxOf_lt_length_iff.2 (List.mem_singleton.mpr rfl)⟩ = ix2 k (0 : Fin 1) := by
    funext b; refine Fin.ext ?_
    match b with
    | ⟨0, _⟩ => rfl
    | ⟨1, _⟩ => rfl
  rw [hsi]

/-- On the operand's axis 1, which the scatter indices do not address, the window starts at zero. -/
theorem rowScatter_start1 {N C R w : Nat}
    (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) :
    (rowScatterDims N C R wf).start j idx (1 : Fin 2) = 0 := by
  unfold ScatterDims.start
  exact dif_neg (show (1 : Fin 2) ∉ ([0] : List (Fin 2)) from by decide)

/-- The window coordinate on the inserted axis 0 is zero. -/
theorem rowScatter_window0 {N C R : Nat}
    (wf : ScatterDims.WF ⟨2, ![N, C]⟩ ⟨2, ![R, 1]⟩ ⟨2, ![R, C]⟩ [1] [0] [0] 1)
    (j : (⟨2, ![R, C]⟩ : Shape).Idx) :
    (rowScatterDims N C R wf).window j (0 : Fin 2) = 0 := by
  unfold ScatterDims.window
  exact dif_neg (fun h => ((mem_kept _ _).mp h) (List.mem_singleton.mpr rfl))

/-- The window coordinate on axis 1 is the update's column. -/
theorem rowScatter_window1 {N C R : Nat}
    (wf : ScatterDims.WF ⟨2, ![N, C]⟩ ⟨2, ![R, 1]⟩ ⟨2, ![R, C]⟩ [1] [0] [0] 1)
    (j : (⟨2, ![R, C]⟩ : Shape).Idx) :
    (rowScatterDims N C R wf).window j (1 : Fin 2) = (j 1).val := by
  have h1k : (1 : Fin 2) ∈ (rowScatterDims N C R wf).sKept :=
    (mem_kept _ _).mpr (show (1 : Fin 2) ∉ ([0] : List (Fin 2)) from by decide)
  unfold ScatterDims.window
  rw [dif_pos h1k]
  rfl

/-- Update element `(k, c')` lands on operand element `(v, c)` exactly when row `k`'s scatter index, read signed, is
    `v` and the columns agree (an index that is not a row number lands nowhere). -/
theorem rowScatter_resultIdx?_eq_some {N C R w : Nat}
    (wf : ScatterDims.WF ⟨2, ![N, C]⟩ ⟨2, ![R, 1]⟩ ⟨2, ![R, C]⟩ [1] [0] [0] 1)
    (idx : IVec ⟨2, ![R, 1]⟩ w) (k : Fin R) (c' : Fin C) (v : Fin N) (c : Fin C) :
    (rowScatterDims N C R wf).resultIdx? (ix2 k c') idx = some (ix2 v c)
      ↔ (idx (ix2 k (0 : Fin 1))).toInt = (v.val : Int) ∧ c' = c := by
  have hs0 := rowScatter_start0 wf idx k c'
  have hs1 := rowScatter_start1 wf idx (ix2 k c')
  have hw0 := rowScatter_window0 wf (ix2 k c')
  have hw1 : (rowScatterDims N C R wf).window (ix2 k c') (1 : Fin 2) = c'.val := rowScatter_window1 wf (ix2 k c')
  have hv := v.isLt
  have hc' := c'.isLt
  unfold ScatterDims.resultIdx?
  split
  · rename_i h
    rw [Option.some.injEq]
    constructor
    · intro hf
      have h0 : ((rowScatterDims N C R wf).start (ix2 k c') idx (0 : Fin 2)
          + ((rowScatterDims N C R wf).window (ix2 k c') (0 : Fin 2) : Int)).toNat = v.val :=
        congrArg Fin.val (congrFun hf (0 : Fin 2))
      have h1 : ((rowScatterDims N C R wf).start (ix2 k c') idx (1 : Fin 2)
          + ((rowScatterDims N C R wf).window (ix2 k c') (1 : Fin 2) : Int)).toNat = c.val :=
        congrArg Fin.val (congrFun hf (1 : Fin 2))
      have hh := (h (0 : Fin 2)).1
      rw [hs0, hw0] at h0 hh
      rw [hs1, hw1] at h1
      exact ⟨by omega, Fin.ext (by omega)⟩
    · rintro ⟨hv', hcc⟩
      have hcv : c'.val = c.val := congrArg Fin.val hcc
      funext a
      refine Fin.ext ?_
      match a with
      | ⟨0, _⟩ =>
        show ((rowScatterDims N C R wf).start (ix2 k c') idx (0 : Fin 2)
          + ((rowScatterDims N C R wf).window (ix2 k c') (0 : Fin 2) : Int)).toNat = v.val
        rw [hs0, hw0, hv']; omega
      | ⟨1, _⟩ =>
        show ((rowScatterDims N C R wf).start (ix2 k c') idx (1 : Fin 2)
          + ((rowScatterDims N C R wf).window (ix2 k c') (1 : Fin 2) : Int)).toNat = c.val
        rw [hs1, hw1]; omega
  · rename_i h
    refine iff_of_false (by simp) ?_
    rintro ⟨hv', -⟩
    apply h
    intro a
    match a with
    | ⟨0, _⟩ =>
      show 0 ≤ (rowScatterDims N C R wf).start (ix2 k c') idx (0 : Fin 2)
          + ((rowScatterDims N C R wf).window (ix2 k c') (0 : Fin 2) : Int)
        ∧ (rowScatterDims N C R wf).start (ix2 k c') idx (0 : Fin 2)
          + ((rowScatterDims N C R wf).window (ix2 k c') (0 : Fin 2) : Int) < (N : Int)
      rw [hs0, hw0, hv']; omega
    | ⟨1, _⟩ =>
      show 0 ≤ (rowScatterDims N C R wf).start (ix2 k c') idx (1 : Fin 2)
          + ((rowScatterDims N C R wf).window (ix2 k c') (1 : Fin 2) : Int)
        ∧ (rowScatterDims N C R wf).start (ix2 k c') idx (1 : Fin 2)
          + ((rowScatterDims N C R wf).window (ix2 k c') (1 : Fin 2) : Int) < (C : Int)
      rw [hs1, hw1]; omega

/-- THE ROW SCATTER-ADD READ AT `(v, c)`, at the ideal instance: the operand's element plus column `c` of every
    update row whose scatter index, read signed, is `v`. -/
theorem scatterAdd_row_apply {N C R w : Nat}
    (wf : ScatterDims.WF ⟨2, ![N, C]⟩ ⟨2, ![R, 1]⟩ ⟨2, ![R, C]⟩ [1] [0] [0] 1) {φ : FTy}
    (x : FVec Ideal ⟨2, ![N, C]⟩ φ) (idx : IVec ⟨2, ![R, 1]⟩ w) (upd : FVec Ideal ⟨2, ![R, C]⟩ φ)
    (v : Fin N) (c : Fin C) :
    Host.scatterAdd (F := Ideal) (rowScatterDims N C R wf) x idx upd (ix2 v c)
      = x (ix2 v c) + ∑ k : Fin R, if (idx (ix2 k (0 : Fin 1))).toInt = (v.val : Int) then upd (ix2 k c) else 0 := by
  show Ideal.hostScatterAdd (rowScatterDims N C R wf) x idx upd (ix2 v c) = _
  unfold Ideal.hostScatterAdd
  congr 1
  rw [Finset.sum_filter, sum_idx2]
  refine Finset.sum_congr rfl fun k _ => ?_
  simp only [rowScatter_resultIdx?_eq_some]
  by_cases hk : (idx (ix2 k (0 : Fin 1))).toInt = (v.val : Int)
  · have hcg : ∀ b : Fin C, (if (idx (ix2 k (0 : Fin 1))).toInt = (v.val : Int) ∧ b = c then upd (ix2 k b) else 0)
        = if b = c then upd (ix2 k b) else 0 := fun b => if_congr (and_iff_right hk) rfl rfl
    rw [if_pos hk, Finset.sum_congr rfl (fun b _ => hcg b),
      Finset.sum_ite_eq' Finset.univ c (fun b => upd (ix2 k b)), if_pos (Finset.mem_univ c)]
  · rw [if_neg hk]
    exact Finset.sum_eq_zero fun b _ => if_neg (fun h => hk h.1)

/-- The same for any dimension numbers whose fields are those of a scatter of rows. -/
theorem scatterAdd_row_apply_of {N C R w : Nat} (d : ScatterDims ⟨2, ![N, C]⟩ ⟨2, ![R, 1]⟩ ⟨2, ![R, C]⟩)
    (h1 : d.updateWindowDims = [1]) (h2 : d.insertedWindowDims = [0]) (h3 : d.scatterDimsToOperandDims = [0])
    (h4 : d.indexVectorDim = 1) {φ : FTy}
    (x : FVec Ideal ⟨2, ![N, C]⟩ φ) (idx : IVec ⟨2, ![R, 1]⟩ w) (upd : FVec Ideal ⟨2, ![R, C]⟩ φ)
    (v : Fin N) (c : Fin C) :
    Host.scatterAdd (F := Ideal) d x idx upd (ix2 v c)
      = x (ix2 v c) + ∑ k : Fin R, if (idx (ix2 k (0 : Fin 1))).toInt = (v.val : Int) then upd (ix2 k c) else 0 := by
  obtain ⟨uw, iw, sd, iv, wf⟩ := d
  dsimp only at h1 h2 h3 h4
  subst h1 h2 h3 h4
  exact scatterAdd_row_apply wf x idx upd v c

/-! ## A scatter that adds scalars into a vector -/

/-- A rank-1 index set is its coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of a scatter of scalars into a vector: operand `[N]`, scatter indices `[R, 1]`, updates
    `[R]`; the operand's one axis is inserted and indexed, the updates have no window axis. -/
abbrev vecScatterDims (N R : Nat)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- Update `k`'s one-element window starts at the scatter index `idx[k, 0]` read signed. -/
theorem vecScatter_start {N R w : Nat}
    (wf : ScatterDims.WF ⟨1, ![N]⟩ ⟨2, ![R, 1]⟩ ⟨1, ![R]⟩ [] [0] [0] 1)
    (idx : IVec ⟨2, ![R, 1]⟩ w) (k : Fin R) :
    (vecScatterDims N R wf).start (ix1 k) idx (0 : Fin 1) = (idx (ix2 k (0 : Fin 1))).toInt := by
  unfold ScatterDims.start
  rw [dif_pos (show (0 : Fin 1) ∈ (vecScatterDims N R wf).scatterDimsToOperandDims from List.mem_singleton.mpr rfl)]
  have hsi : (vecScatterDims N R wf).siIdx (ix1 k) ⟨List.idxOf (0 : Fin 1) (vecScatterDims N R wf).scatterDimsToOperandDims,
      List.idxOf_lt_length_iff.2 (List.mem_singleton.mpr rfl)⟩ = ix2 k (0 : Fin 1) := by
    funext b; refine Fin.ext ?_
    match b with
    | ⟨0, _⟩ => rfl
    | ⟨1, _⟩ => rfl
  rw [hsi]

/-- The window coordinate on the operand's one, inserted axis is zero. -/
theorem vecScatter_window {N R : Nat}
    (wf : ScatterDims.WF ⟨1, ![N]⟩ ⟨2, ![R, 1]⟩ ⟨1, ![R]⟩ [] [0] [0] 1)
    (j : (⟨1, ![R]⟩ : Shape).Idx) :
    (vecScatterDims N R wf).window j (0 : Fin 1) = 0 := by
  unfold ScatterDims.window
  exact dif_neg (fun h => ((mem_kept _ _).mp h) (List.mem_singleton.mpr rfl))

/-- Update `k` lands on operand element `v` exactly when its scatter index, read signed, is `v`. -/
theorem vecScatter_resultIdx?_eq_some {N R w : Nat}
    (wf : ScatterDims.WF ⟨1, ![N]⟩ ⟨2, ![R, 1]⟩ ⟨1, ![R]⟩ [] [0] [0] 1)
    (idx : IVec ⟨2, ![R, 1]⟩ w) (k : Fin R) (v : Fin N) :
    (vecScatterDims N R wf).resultIdx? (ix1 k) idx = some (ix1 v)
      ↔ (idx (ix2 k (0 : Fin 1))).toInt = (v.val : Int) := by
  have hs0 := vecScatter_start wf idx k
  have hw0 := vecScatter_window wf (ix1 k)
  have hv := v.isLt
  unfold ScatterDims.resultIdx?
  split
  · rename_i h
    rw [Option.some.injEq]
    constructor
    · intro hf
      have h0 : ((vecScatterDims N R wf).start (ix1 k) idx (0 : Fin 1)
          + ((vecScatterDims N R wf).window (ix1 k) (0 : Fin 1) : Int)).toNat = v.val :=
        congrArg Fin.val (congrFun hf (0 : Fin 1))
      have hh := (h (0 : Fin 1)).1
      rw [hs0, hw0] at h0 hh
      omega
    · intro hv'
      funext a
      refine Fin.ext ?_
      match a with
      | ⟨0, _⟩ =>
        show ((vecScatterDims N R wf).start (ix1 k) idx (0 : Fin 1)
          + ((vecScatterDims N R wf).window (ix1 k) (0 : Fin 1) : Int)).toNat = v.val
        rw [hs0, hw0, hv']; omega
  · rename_i h
    refine iff_of_false (by simp) ?_
    intro hv'
    apply h
    intro a
    match a with
    | ⟨0, _⟩ =>
      show 0 ≤ (vecScatterDims N R wf).start (ix1 k) idx (0 : Fin 1)
          + ((vecScatterDims N R wf).window (ix1 k) (0 : Fin 1) : Int)
        ∧ (vecScatterDims N R wf).start (ix1 k) idx (0 : Fin 1)
          + ((vecScatterDims N R wf).window (ix1 k) (0 : Fin 1) : Int) < (N : Int)
      rw [hs0, hw0, hv']; omega

/-- THE SCALAR SCATTER-ADD READ AT `v`, at the ideal instance: the operand's element plus every update whose scatter
    index, read signed, is `v`. -/
theorem scatterAdd_vec_apply {N R w : Nat}
    (wf : ScatterDims.WF ⟨1, ![N]⟩ ⟨2, ![R, 1]⟩ ⟨1, ![R]⟩ [] [0] [0] 1) {φ : FTy}
    (x : FVec Ideal ⟨1, ![N]⟩ φ) (idx : IVec ⟨2, ![R, 1]⟩ w) (upd : FVec Ideal ⟨1, ![R]⟩ φ) (v : Fin N) :
    Host.scatterAdd (F := Ideal) (vecScatterDims N R wf) x idx upd (ix1 v)
      = x (ix1 v) + ∑ k : Fin R, if (idx (ix2 k (0 : Fin 1))).toInt = (v.val : Int) then upd (ix1 k) else 0 := by
  show Ideal.hostScatterAdd (vecScatterDims N R wf) x idx upd (ix1 v) = _
  unfold Ideal.hostScatterAdd
  congr 1
  rw [Finset.sum_filter, sum_idx1]
  refine Finset.sum_congr rfl fun k _ => ?_
  simp only [vecScatter_resultIdx?_eq_some]

/-- The same for any dimension numbers whose fields are those of a scatter of scalars into a vector. -/
theorem scatterAdd_vec_apply_of {N R w : Nat} (d : ScatterDims ⟨1, ![N]⟩ ⟨2, ![R, 1]⟩ ⟨1, ![R]⟩)
    (h1 : d.updateWindowDims = []) (h2 : d.insertedWindowDims = [0]) (h3 : d.scatterDimsToOperandDims = [0])
    (h4 : d.indexVectorDim = 1) {φ : FTy}
    (x : FVec Ideal ⟨1, ![N]⟩ φ) (idx : IVec ⟨2, ![R, 1]⟩ w) (upd : FVec Ideal ⟨1, ![R]⟩ φ) (v : Fin N) :
    Host.scatterAdd (F := Ideal) d x idx upd (ix1 v)
      = x (ix1 v) + ∑ k : Fin R, if (idx (ix2 k (0 : Fin 1))).toInt = (v.val : Int) then upd (ix1 k) else 0 := by
  obtain ⟨uw, iw, sd, iv, wf⟩ := d
  dsimp only at h1 h2 h3 h4
  subst h1 h2 h3 h4
  exact scatterAdd_vec_apply wf x idx upd v

/-! ## Extended-real arithmetic -/

/-- A natural number times an extended real is the repeated sum. -/
theorem natCast_mul_eq_nsmul (n : ℕ) (x : EReal) : ((n : ℝ) : EReal) * x = n • x := by
  induction n with
  | zero => simp
  | succ n ih =>
    have hn : (0 : EReal) ≤ ((n : ℝ) : EReal) := EReal.coe_nonneg.mpr (Nat.cast_nonneg n)
    rw [Nat.cast_succ, EReal.coe_add, EReal.coe_one,
      EReal.right_distrib_of_nonneg (a := ((n : ℝ) : EReal)) (b := 1) (c := x) hn zero_le_one, ih, one_mul, succ_nsmul]

/-- A sum over the indices that satisfy `p` of `A k + x` is the sum of the `A k` plus their number times `x`
    (the count is a sum of ones, so it is nonnegative and multiplication distributes over it). -/
theorem sum_ite_add_const {K : Type*} [Fintype K] (p : K → Prop) [DecidablePred p] (A : K → EReal) (x : EReal) :
    ∑ k, (if p k then A k + x else 0) = (∑ k, if p k then A k else 0) + (∑ k, if p k then (1 : EReal) else 0) * x := by
  classical
  have key : ∀ s : Finset K, ∑ k ∈ s, (if p k then A k + x else 0)
      = (∑ k ∈ s, if p k then A k else 0) + (∑ k ∈ s, if p k then (1 : EReal) else 0) * x := by
    intro s
    induction s using Finset.induction_on with
    | empty => simp
    | insert a s ha ih =>
      rw [Finset.sum_insert ha, Finset.sum_insert ha, Finset.sum_insert ha, ih]
      have hnn : (0 : EReal) ≤ ∑ k ∈ s, if p k then (1 : EReal) else 0 :=
        Finset.sum_nonneg fun k _ => by split <;> simp
      by_cases hp : p a
      · rw [if_pos hp, if_pos hp, if_pos hp, EReal.right_distrib_of_nonneg zero_le_one hnn, one_mul]
        exact add_add_add_comm _ _ _ _
      · rw [if_neg hp, if_neg hp, if_neg hp, zero_add, zero_add, zero_add]
  exact key Finset.univ

end Cert.LibIndex

end
-- ==== Proof.Ref.lean ====
/-
  The reference's result, read index by index at the ideal instance.

  The reference aggregates neighbours into `z` (kept here as one function of the node features and the edge list: the
  kernel's program computes the very same term), runs the two-layer perceptron on every node, adds each node's hidden
  features into its graph's row by a scatter, counts each graph's nodes by a second scatter of ones, divides and
  projects. A scatter-add at the ideal instance is the exact sum of the updates whose index, read signed, names the
  row; an index that names no row adds nothing.
-/
import proofs.«417854_j8297876816596_3_alg».proof.Proof.Gen.ReferenceIdeal.Run
import proofs.«417854_j8297876816596_3_alg».proof.Proof.Gen.ReferenceIdeal.Read
import proofs.«417854_j8297876816596_3_alg».proof.Proof.Hidden
import proofs.«417854_j8297876816596_3_alg».proof.Proof.LibIndex
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx
open Cert.GinPool Cert.LibIndex

/-- The aggregated node features `z = x + Σ_neighbours x`, as the reference computes them. -/
abbrev zR (x0 : (⟨S262144x4, .f32⟩ : BufTy).Contents (Elt Ideal)) (x1 : (⟨S2x8388608, .i32⟩ : BufTy).Contents (Elt Ideal)) :
    (⟨S262144x4, .f32⟩ : BufTy).Contents (Elt Ideal) := val_main_v14 (F := Ideal) x0 x1

/-- The float word of `1.0` is the extended real one. -/
theorem one_word : Ideal.ofBits .f32 0x3F800000#32 = 1 := IdealRules.sign_bit.ideal_onePat .f32

/-- NODE `n`'S HIDDEN FEATURE `k` in the reference: the perceptron of row `n` of `z`. -/
theorem hidden_apply (x0 : (⟨S262144x4, .f32⟩ : BufTy).Contents (Elt Ideal)) (x1 : (⟨S2x8388608, .i32⟩ : BufTy).Contents (Elt Ideal)) (x3 : (⟨S4x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (n : Fin 262144) (k : Fin 64) :
    val_main_v24 (F := Ideal) x0 x1 x3 x4 x5 x6 (ix2 n k)
      = hidRow (fun a => zR x0 x1 (ix2 n a)) x3 (fun j => x4 (ix1 j)) x5 (fun j => x6 (ix1 j)) k := by
  have e21l : ∀ j : Fin 64, lidx_main_v21 (ix2 n k) j = ix2 n j := fun j => funext fun a => Fin.ext (by match a with | ⟨0, _⟩ => rfl | ⟨1, _⟩ => rfl)
  have e21r : ∀ j : Fin 64, ridx_main_v21 (ix2 n k) j = ix2 j k := fun j => funext fun a => Fin.ext (by match a with | ⟨0, _⟩ => rfl | ⟨1, _⟩ => rfl)
  have e15l : ∀ (j : Fin 64) (a : Fin 4), lidx_main_v15 (ix2 n j) a = ix2 n a := fun j a => funext fun a => Fin.ext (by match a with | ⟨0, _⟩ => rfl | ⟨1, _⟩ => rfl)
  have e15r : ∀ (j : Fin 64) (a : Fin 4), ridx_main_v15 (ix2 n j) a = ix2 a j := fun j a => funext fun a => Fin.ext (by match a with | ⟨0, _⟩ => rfl | ⟨1, _⟩ => rfl)
  have e17 : ∀ j : Fin 64, idx_main_v16 (idx_main_v17 (ix2 n j)) = ix1 j := fun j => funext fun a => Fin.ext (by match a with | ⟨0, _⟩ => rfl)
  have e23 : idx_main_v22 (idx_main_v23 (ix2 n k)) = ix1 k := funext fun a => Fin.ext (by match a with | ⟨0, _⟩ => rfl)
  rw [val_main_v24_apply, val_main_v21_apply, val_main_v23_apply, val_main_v22_apply, e23]
  unfold hidRow
  show (∑ j : Fin 64, _) + _ = _
  congr 1
  refine Finset.sum_congr rfl fun j _ => ?_
  rw [e21l, e21r, val_main_v20_apply, val_main_v18_apply, val_main_v15_apply, val_main_v17_apply, val_main_v16_apply, e17,
    val_main_v19_apply, val_main_cst_1_apply]
  show max ((∑ a : Fin 4, _) + _) (Ideal.ofBits .f32 0x00000000#32) * _ = _
  rw [Ideal.ofBits_zero_f32]
  congr 2
  congr 1
  exact Finset.sum_congr rfl fun a _ => by rw [e15l, e15r]

/-- GRAPH `g`'S SUMMED FEATURE `k` in the reference: zero plus the hidden feature `k` of every node whose id is `g`. -/
theorem sums_apply (x0 : (⟨S262144x4, .f32⟩ : BufTy).Contents (Elt Ideal)) (x1 : (⟨S2x8388608, .i32⟩ : BufTy).Contents (Elt Ideal)) (x2 : (⟨S262144, .i32⟩ : BufTy).Contents (Elt Ideal)) (x3 : (⟨S4x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (g : Fin 512) (k : Fin 64) :
    val_main_v27 (F := Ideal) x0 x1 x2 x3 x4 x5 x6 (ix2 g k)
      = 0 + ∑ n : Fin 262144, if (x2 (ix1 n)).toInt = (g.val : Int)
          then hidRow (fun a => zR x0 x1 (ix2 n a)) x3 (fun j => x4 (ix1 j)) x5 (fun j => x6 (ix1 j)) k else 0 := by
  unfold val_main_v27
  rw [scatterAdd_row_apply_of scatter_S512x64_S262144x1_S262144x64_1_0_0_1 rfl rfl rfl rfl,
    val_main_v25_apply, val_main_cst_2_apply]
  show Ideal.ofBits .f32 0x00000000#32 + _ = _
  rw [Ideal.ofBits_zero_f32]
  refine congrArg (fun s => (0 : EReal) + s) (Finset.sum_congr rfl fun n _ => ?_)
  rw [val_main_v26_apply, show idx_main_v26 (ix2 n (0 : Fin 1)) = ix1 n from funext fun a => Fin.ext (by match a with | ⟨0, _⟩ => rfl), hidden_apply]

/-- GRAPH `g`'S NODE COUNT in the reference: zero plus one for every node whose id is `g`. -/
theorem counts_apply (x2 : (⟨S262144, .i32⟩ : BufTy).Contents (Elt Ideal)) (g : Fin 512) :
    val_main_v31 (F := Ideal) x2 (ix1 g)
      = 0 + ∑ n : Fin 262144, if (x2 (ix1 n)).toInt = (g.val : Int) then (1 : EReal) else 0 := by
  unfold val_main_v31
  rw [scatterAdd_vec_apply_of scatter_S512_S262144x1_S262144_n_0_0_1 rfl rfl rfl rfl,
    val_main_v29_apply, val_main_cst_4_apply]
  show Ideal.ofBits .f32 0x00000000#32 + _ = _
  rw [Ideal.ofBits_zero_f32]
  refine congrArg (fun s => (0 : EReal) + s) (Finset.sum_congr rfl fun n _ => ?_)
  rw [val_main_v30_apply, show idx_main_v30 (ix2 n (0 : Fin 1)) = ix1 n from funext fun a => Fin.ext (by match a with | ⟨0, _⟩ => rfl), val_main_v28_apply, val_main_cst_3_apply]
  show (if _ then Ideal.ofBits .f32 0x3F800000#32 else 0) = _
  rw [one_word]

/-- THE REFERENCE'S RESULT at graph `g`, output `o`: the read-out of the segment sums and counts. -/
theorem result_apply (x0 : (⟨S262144x4, .f32⟩ : BufTy).Contents (Elt Ideal)) (x1 : (⟨S2x8388608, .i32⟩ : BufTy).Contents (Elt Ideal)) (x2 : (⟨S262144, .i32⟩ : BufTy).Contents (Elt Ideal)) (x3 : (⟨S4x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x128, .f32⟩ : BufTy).Contents (Elt Ideal)) (x8 : (⟨S128, .f32⟩ : BufTy).Contents (Elt Ideal))
    (g : Fin 512) (o : Fin 128) :
    val_main_v40 (F := Ideal) x0 x1 x2 x3 x4 x5 x6 x7 x8 (ix2 g o)
      = readOut
          (fun g k => 0 + ∑ n : Fin 262144, if (x2 (ix1 n)).toInt = (g.val : Int)
            then hidRow (fun a => zR x0 x1 (ix2 n a)) x3 (fun j => x4 (ix1 j)) x5 (fun j => x6 (ix1 j)) k else 0)
          (fun g => 0 + ∑ n : Fin 262144, if (x2 (ix1 n)).toInt = (g.val : Int) then (1 : EReal) else 0)
          x7 (fun o => x8 (ix1 o)) g o := by
  have e37l : ∀ k : Fin 64, lidx_main_v37 (ix2 g o) k = ix2 g k := fun k => funext fun a => Fin.ext (by match a with | ⟨0, _⟩ => rfl | ⟨1, _⟩ => rfl)
  have e37r : ∀ k : Fin 64, ridx_main_v37 (ix2 g o) k = ix2 k o := fun k => funext fun a => Fin.ext (by match a with | ⟨0, _⟩ => rfl | ⟨1, _⟩ => rfl)
  have e39 : idx_main_v38 (idx_main_v39 (ix2 g o)) = ix1 o := funext fun a => Fin.ext (by match a with | ⟨0, _⟩ => rfl)
  have e35 : ∀ k : Fin 64, idx_main_v34 (idx_main_v35 (ix2 g k)) = ix1 g := fun k => funext fun a => Fin.ext (by match a with | ⟨0, _⟩ => rfl)
  rw [val_main_v40_apply, val_main_v37_apply, val_main_v39_apply, val_main_v38_apply, e39]
  unfold readOut
  refine congrArg (fun s => s + x8 (ix1 o)) (Finset.sum_congr rfl fun k _ => ?_)
  rw [e37l, e37r, val_main_v36_apply, sums_apply, val_main_v35_apply, val_main_v34_apply, e35, val_main_v33_apply, counts_apply,
    val_main_v32_apply, val_main_cst_5_apply]
  rfl

end Cert.ReferenceIdeal.RefValue

end
-- ==== Proof.lean ====
/-
  A graph-isomorphism layer with mean pooling, two ways.

  Both programs first aggregate each node's neighbours into `z = x + Σ x[src]` by the same gather and scatter, and run
  the same two-layer perceptron `h = relu (z · W1 + b1) · W2 + b2` on every node. The reference then pools by two
  segment sums over the graph ids: the hidden features of each graph's nodes, and the number of its nodes. The kernel
  pools by a one-hot product: in blocks of 8192 nodes, sixteen blocks per core on two cores, it multiplies the
  512 × 8192 indicator of "node r has id g" into the block's hidden features and adds the indicator's row sums, starting
  each core from zero; the host adds the two cores' totals. Both then divide the sums by the counts (at least one),
  project by `Wl` and add `bl`.

  Over the extended reals the two poolings agree for every list of ids: an indicator entry is one or zero, so its
  product with a hidden feature is that feature or zero; an id that names no graph matches no indicator row and is
  dropped by the segment sum as well; and regrouping a sum by blocks and cores uses only that addition is commutative
  and associative. So the precondition (finite inputs) is not used by the value claim.
-/
import proofs.«417854_j8297876816596_3_alg».proof.Defs
import proofs.«417854_j8297876816596_3_alg».proof.Proof.Gen.Kernel.Frame
import proofs.«417854_j8297876816596_3_alg».proof.Proof.Gen.KernelIdeal.Frame
import proofs.«417854_j8297876816596_3_alg».proof.Proof.Gen.ReferenceIdeal.Run
import proofs.«417854_j8297876816596_3_alg».proof.Proof.Gen.ReferenceIdeal.Read
import proofs.«417854_j8297876816596_3_alg».proof.Proof.Gen.Pre_finite_inputs
import proofs.«417854_j8297876816596_3_alg».proof.Proof.KResult
import proofs.«417854_j8297876816596_3_alg».proof.Proof.Ref
import Idealize.ShloMosaic.Adequacy
import Idealize.ShloMosaic.Init

noncomputable section

namespace Cert.Proof

open Idealize.ShloMosaic Idealize.ShloMosaic.TcCoe Idealize.SL.Sem Idealize.ShloMosaic.ValueIdx

/-- The aggregated node features are one term in both programs: the same slices, gather, scatter and sum. -/
theorem z_eq (x0 : (⟨Cert.KernelIdeal.S262144x4, .f32⟩ : BufTy).Contents (Elt Ideal)) (x1 : (⟨Cert.KernelIdeal.S2x8388608, .i32⟩ : BufTy).Contents (Elt Ideal)) :
    Cert.KernelIdeal.Value.zK (F := Ideal) x0 x1 = Cert.ReferenceIdeal.Read.val_main_v14 (F := Ideal) x0 x1 := rfl

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- At the ideal instance the kernel's program ends at the read-out of zero plus every node's share, and the reference at
    the read-out of its two segment sums, of arguments that agree: the same extended reals, index by index. -/
theorem algebraic : Cert.algebraic_KernelIdeal_ReferenceIdeal := by
  intro m ρ m' ρ' _ hagree
  refine ⟨fun c => Cert.KernelIdeal.Value.tailK (F := Ideal) (Cert.KernelIdeal.Value.partS m c) (Cert.KernelIdeal.Value.partC m c) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    Cert.KernelIdeal.Value.run m ρ, ?_⟩
  refine (θ_run Cert.ReferenceIdeal.defs _ _).mono (fun _ h c => ⟨(h c).1.trans ?_, (h c).2⟩) (Cert.ReferenceIdeal.Value.run (F := Ideal) m' ρ')
  obtain ⟨a0, a1, a2, a3, a4, a5, a6, a7, a8⟩ := hagree c
  rw [Cert.ReferenceIdeal.Read.val_main_v40_eq]
  dsimp only
  funext i
  obtain ⟨g, o, rfl⟩ : ∃ (g : Fin 512) (o : Fin 128), i = ix2 g o := ⟨i 0, i 1, eq_ix2 i⟩
  rw [Cert.ReferenceIdeal.RefValue.result_apply, Cert.KernelIdeal.Result.result_apply, a0, a1, a2, a3, a4, a5, a6, a7, a8]
  unfold Cert.KernelIdeal.Result.shareS Cert.KernelIdeal.Result.shareC Cert.ReferenceIdeal.RefValue.zR
  rw [z_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
